-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x162 : Shape := ⟨2, ![16384, 162]⟩
abbrev S16384x81x81 : Shape := ⟨3, ![16384, 81, 81]⟩
abbrev S81x32 : Shape := ⟨2, ![81, 32]⟩
abbrev S32x32 : Shape := ⟨2, ![32, 32]⟩
abbrev S32x1 : Shape := ⟨2, ![32, 1]⟩
abbrev S1 : Shape := ⟨1, ![1]⟩
abbrev S369 : Shape := ⟨1, ![369]⟩
abbrev S_ : Shape := ⟨0, ![]⟩

class Facts : Prop where
  bcast_S_S16384x162 : S_.BroadcastsInDim S16384x162 (![] : Fin 0 → Fin S16384x162.rank)
  reducesTo_S16384x162_S_d0_1 : S16384x162.ReducesTo [0, 1] S_
  h_S_ : 0 < S_.numel
  bcast_S_S16384x81x81 : S_.BroadcastsInDim S16384x81x81 (![] : Fin 0 → Fin S16384x81x81.rank)
  reducesTo_S16384x81x81_S_d0_1_2 : S16384x81x81.ReducesTo [0, 1, 2] S_
  bcast_S_S81x32 : S_.BroadcastsInDim S81x32 (![] : Fin 0 → Fin S81x32.rank)
  reducesTo_S81x32_S_d0_1 : S81x32.ReducesTo [0, 1] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S369 : S_.BroadcastsInDim S369 (![] : Fin 0 → Fin S369.rank)
  reducesTo_S369_S_d0 : S369.ReducesTo [0] S_

variable [Facts]

def fn_part3 {F : FTy → Type} [FloatOps F] (main_arg8 : IVec S369 32) (main_v48 : IVec S_ 1) (main_c_20 : IVec S_ 32) : IVec S_ 1 :=
  let main_v49 : IVec S369 32 := broadcastInDim S369 ![] bcast_S_S369 main_c_20
  let main_v50 : IVec S369 1 := cmpi .slt main_arg8 main_v49
  let main_c_21 : IVec S_ 1 := constantI S_ 1 1#1
  let main_v51 : IVec S_ 1 := (fun x v => Host.reduce IntOp.andi x v reducesTo_S369_S_d0 h_S_) main_v50 main_c_21
  let main_v52 : IVec S_ 1 := andi main_v48 main_v51
  main_v52

def fn_part2 {F : FTy → Type} [FloatOps F] (main_arg6 : IVec S369 32) (main_arg7 : IVec S369 32) (main_arg8 : IVec S369 32) (main_v32 : IVec S_ 1) (main_c_12 : IVec S_ 32) : IVec S_ 1 :=
  let main_v33 : IVec S369 32 := broadcastInDim S369 ![] bcast_S_S369 main_c_12
  let main_v34 : IVec S369 1 := cmpi .slt main_arg6 main_v33
  let main_c_13 : IVec S_ 1 := constantI S_ 1 1#1
  let main_v35 : IVec S_ 1 := (fun x v => Host.reduce IntOp.andi x v reducesTo_S369_S_d0 h_S_) main_v34 main_c_13
  let main_v36 : IVec S_ 1 := andi main_v32 main_v35
  let main_c_14 : IVec S_ 32 := constantI S_ 32 0#32
  let main_v37 : IVec S369 32 := broadcastInDim S369 ![] bcast_S_S369 main_c_14
  let main_v38 : IVec S369 1 := cmpi .sge main_arg7 main_v37
  let main_c_15 : IVec S_ 1 := constantI S_ 1 1#1
  let main_v39 : IVec S_ 1 := (fun x v => Host.reduce IntOp.andi x v reducesTo_S369_S_d0 h_S_) main_v38 main_c_15
  let main_v40 : IVec S_ 1 := andi main_v36 main_v39
  let main_c_16 : IVec S_ 32 := constantI S_ 32 81#32
  let main_v41 : IVec S369 32 := broadcastInDim S369 ![] bcast_S_S369 main_c_16
  let main_v42 : IVec S369 1 := cmpi .slt main_arg7 main_v41
  let main_c_17 : IVec S_ 1 := constantI S_ 1 1#1
  let main_v43 : IVec S_ 1 := (fun x v => Host.reduce IntOp.andi x v reducesTo_S369_S_d0 h_S_) main_v42 main_c_17
  let main_v44 : IVec S_ 1 := andi main_v40 main_v43
  let main_c_18 : IVec S_ 32 := constantI S_ 32 0#32
  let main_v45 : IVec S369 32 := broadcastInDim S369 ![] bcast_S_S369 main_c_18
  let main_v46 : IVec S369 1 := cmpi .sge main_arg8 main_v45
  let main_c_19 : IVec S_ 1 := constantI S_ 1 1#1
  let main_v47 : IVec S_ 1 := (fun x v => Host.reduce IntOp.andi x v reducesTo_S369_S_d0 h_S_) main_v46 main_c_19
  let main_v48 : IVec S_ 1 := andi main_v44 main_v47
  let main_c_20 : IVec S_ 32 := constantI S_ 32 81#32
  fn_part3 (F := F) main_arg8 main_v48 main_c_20

def fn_part1 {F : FTy → Type} [FloatOps F] (main_arg4 : FVec F S32x1 .f32) (main_arg5 : FVec F S1 .f32) (main_arg6 : IVec S369 32) (main_arg7 : IVec S369 32) (main_arg8 : IVec S369 32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x1 .f32 := Host.absf main_arg4
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S369 32 := broadcastInDim S369 ![] bcast_S_S369 main_c_10
  let main_v30 : IVec S369 1 := cmpi .sge main_arg6 main_v29
  let main_c_11 : IVec S_ 1 := constantI S_ 1 1#1
  let main_v31 : IVec S_ 1 := (fun x v => Host.reduce IntOp.andi x v reducesTo_S369_S_d0 h_S_) main_v30 main_c_11
  let main_v32 : IVec S_ 1 := andi main_v28 main_v31
  let main_c_12 : IVec S_ 32 := constantI S_ 32 81#32
  fn_part2 (F := F) main_arg6 main_arg7 main_arg8 main_v32 main_c_12

def fn {F : FTy → Type} [FloatOps F] (main_arg0 : FVec F S16384x162 .f32) (main_arg1 : FVec F S16384x81x81 .f32) (main_arg2 : FVec F S81x32 .f32) (main_arg3 : FVec F S32x32 .f32) (main_arg4 : FVec F S32x1 .f32) (main_arg5 : FVec F S1 .f32) (main_arg6 : IVec S369 32) (main_arg7 : IVec S369 32) (main_arg8 : IVec S369 32) : IVec S_ 1 :=
  let main_v0 : FVec F S16384x162 .f32 := Host.absf main_arg0
  let main_cst : FVec F S_ .f32 := constant S_ .f32 0x7F800000#32
  let main_v1 : FVec F S16384x162 .f32 := broadcastInDim S16384x162 ![] bcast_S_S16384x162 main_cst
  let main_v2 : IVec S16384x162 1 := cmpf .olt main_v0 main_v1
  let main_c : IVec S_ 1 := constantI S_ 1 1#1
  let main_v3 : IVec S_ 1 := (fun x v => Host.reduce IntOp.andi x v reducesTo_S16384x162_S_d0_1 h_S_) main_v2 main_c
  let main_v4 : FVec F S16384x81x81 .f32 := Host.absf main_arg1
  let main_cst_0 : FVec F S_ .f32 := constant S_ .f32 0x7F800000#32
  let main_v5 : FVec F S16384x81x81 .f32 := broadcastInDim S16384x81x81 ![] bcast_S_S16384x81x81 main_cst_0
  let main_v6 : IVec S16384x81x81 1 := cmpf .olt main_v4 main_v5
  let main_c_1 : IVec S_ 1 := constantI S_ 1 1#1
  let main_v7 : IVec S_ 1 := (fun x v => Host.reduce IntOp.andi x v reducesTo_S16384x81x81_S_d0_1_2 h_S_) main_v6 main_c_1
  let main_v8 : IVec S_ 1 := andi main_v3 main_v7
  let main_v9 : FVec F S81x32 .f32 := Host.absf main_arg2
  let main_cst_2 : FVec F S_ .f32 := constant S_ .f32 0x7F800000#32
  let main_v10 : FVec F S81x32 .f32 := broadcastInDim S81x32 ![] bcast_S_S81x32 main_cst_2
  let main_v11 : IVec S81x32 1 := cmpf .olt main_v9 main_v10
  let main_c_3 : IVec S_ 1 := constantI S_ 1 1#1
  let main_v12 : IVec S_ 1 := (fun x v => Host.reduce IntOp.andi x v reducesTo_S81x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_v13 main_v16
-- ==== Kernel.lean ====
abbrev S16384x162 : Shape := ⟨2, ![16384, 162]⟩
abbrev S16384x81x81 : Shape := ⟨3, ![16384, 81, 81]⟩
abbrev S81x32 : Shape := ⟨2, ![81, 32]⟩
abbrev S32x32 : Shape := ⟨2, ![32, 32]⟩
abbrev S32x1 : Shape := ⟨2, ![32, 1]⟩
abbrev S1 : Shape := ⟨1, ![1]⟩
abbrev S369 : Shape := ⟨1, ![369]⟩
abbrev S16384x81 : Shape := ⟨2, ![16384, 81]⟩
abbrev S_ : Shape := ⟨0, ![]⟩
abbrev S6561x81 : Shape := ⟨2, ![6561, 81]⟩
abbrev S369x1 : Shape := ⟨2, ![369, 1]⟩
abbrev S369x2 : Shape := ⟨2, ![369, 2]⟩
abbrev S16384x6561 : Shape := ⟨2, ![16384, 6561]⟩
abbrev S16384x128 : Shape := ⟨2, ![16384, 128]⟩
abbrev S512x81 : Shape := ⟨2, ![512, 81]⟩
abbrev S512x6561 : Shape := ⟨2, ![512, 6561]⟩
abbrev S512x128 : Shape := ⟨2, ![512, 128]⟩
abbrev S512 : Shape := ⟨1, ![512]⟩
abbrev S512x1 : Shape := ⟨2, ![512, 1]⟩
abbrev S512x32 : Shape := ⟨2, ![512, 32]⟩
abbrev S512x47 : Shape := ⟨2, ![512, 47]⟩
abbrev S512x82 : Shape := ⟨2, ![512, 82]⟩
abbrev S512x46 : Shape := ⟨2, ![512, 46]⟩
abbrev S512x83 : Shape := ⟨2, ![512, 83]⟩
abbrev S512x45 : Shape := ⟨2, ![512, 45]⟩
abbrev S16384x1 : Shape := ⟨2, ![16384, 1]⟩
abbrev S16384 : Shape := ⟨1, ![16384]⟩

abbrev nBuf : Space → Nat
  | .hbm => 47
  | .vmem => 10
  | .smem => 0
  | _ => 0

abbrev bufTy : (tb : Table) → Fin (tcTables nBuf tb) → BufTy
  | .hbm, ⟨0, _⟩ => ⟨S16384x162, .f32⟩
  | .hbm, ⟨1, _⟩ => ⟨S16384x81x81, .f32⟩
  | .hbm, ⟨2, _⟩ => ⟨S81x32, .f32⟩
  | .hbm, ⟨3, _⟩ => ⟨S32x32, .f32⟩
  | .hbm, ⟨4, _⟩ => ⟨S32x1, .f32⟩
  | .hbm, ⟨5, _⟩ => ⟨S1, .f32⟩
  | .hbm, ⟨6, _⟩ => ⟨S369, .i32⟩
  | .hbm, ⟨7, _⟩ => ⟨S369, .i32⟩
  | .hbm, ⟨8, _⟩ => ⟨S369, .i32⟩
  | .hbm, ⟨9, _⟩ => ⟨S16384x81, .f32⟩
  | .hbm, ⟨10, _⟩ => ⟨S_, .i32⟩
  | .hbm, ⟨11, _⟩ => ⟨S369, .i32⟩
  | .hbm, ⟨12, _⟩ => ⟨S369, .i32⟩
  | .hbm, ⟨13, _⟩ => ⟨S369, .i32⟩
  | .hbm, ⟨14, _⟩ => ⟨S_, .f32⟩
  | .hbm, ⟨15, _⟩ => ⟨S6561x81, .f32⟩
  | .hbm, ⟨16, _⟩ => ⟨S_, .i32⟩
  | .hbm, ⟨17, _⟩ => ⟨S369, .i32⟩
  | .hbm, ⟨18, _⟩ => ⟨S369, .i1⟩
  | .hbm, ⟨19, _⟩ => ⟨S_, .i32⟩
  | .hbm, ⟨20, _⟩ => ⟨S369, .i32⟩
  | .hbm, ⟨21, _⟩ => ⟨S369, .i32⟩
  | .hbm, ⟨22, _⟩ => ⟨S369, .i32⟩
  | .hbm, ⟨23, _⟩ => ⟨S_, .i32⟩
  | .hbm, ⟨24, _⟩ => ⟨S369, .i32⟩
  | .hbm, ⟨25, _⟩ => ⟨S369, .i1⟩
  | .hbm, ⟨26, _⟩ => ⟨S_, .i32⟩
  | .hbm, ⟨27, _⟩ => ⟨S369, .i32⟩
  | .hbm, ⟨28, _⟩ => ⟨S369, .i32⟩
  | .hbm, ⟨29, _⟩ => ⟨S369, .i32⟩
  | .hbm, ⟨30, _⟩ => ⟨S369x1, .i32⟩
  | .hbm, ⟨31, _⟩ => ⟨S369x1, .i32⟩
  | .hbm, ⟨32, _⟩ => ⟨S369x2, .i32⟩
  | .hbm, ⟨33, _⟩ => ⟨S_, .f32⟩
  | .hbm, ⟨34, _⟩ => ⟨S369, .f32⟩
  | .hbm, ⟨35, _⟩ => ⟨S6561x81, .f32⟩
  | .hbm, ⟨36, _⟩ => ⟨S16384x6561, .f32⟩
  | .hbm, ⟨37, _⟩ => ⟨S16384x128, .f32⟩
  | .hbm, ⟨38, _⟩ => ⟨S16384x81, .f32⟩
  | .hbm, ⟨39, _⟩ => ⟨S16384x1, .f32⟩
  | .hbm, ⟨40, _⟩ => ⟨S16384, .f32⟩
  | .hbm, ⟨41, _⟩ => ⟨S16384x1, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384, .f32⟩
  | .local _ .vmem, ⟨0, _⟩ => ⟨S512x81, .f32⟩
  | .local _ .vmem, ⟨1, _⟩ => ⟨S512x81, .f32⟩
  | .local _ .vmem, ⟨2, _⟩ => ⟨S512x6561, .f32⟩
  | .local _ .vmem, ⟨3, _⟩ => ⟨S512x6561, .f32⟩
  | .local _ .vmem, ⟨4, _⟩ => ⟨S6561x81, .f32⟩
  | .local _ .vmem, ⟨5, _⟩ => ⟨S81x32, .f32⟩
  | .local _ .vmem, ⟨6, _⟩ => ⟨S32x32, .f32⟩
  | .local _ .vmem, ⟨7, _⟩ => ⟨S32x1, .f32⟩
  | .local _ .vmem, ⟨8, _⟩ => ⟨S512x128, .f32⟩
  | .local _ .vmem, ⟨9, _⟩ => ⟨S512x128, .f32⟩
  | _, _ => ⟨S16384x162, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x6561 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6561x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S81x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S16384x162_S16384x81_0_81 : S16384x162.Slices ![0, 81] S16384x81
  bcast_S_S369 : S_.BroadcastsInDim S369 (![] : Fin 0 → Fin S369.rank)
  bcast_S_S6561x81 : S_.BroadcastsInDim S6561x81 (![] : Fin 0 → Fin S6561x81.rank)
  bcast_S369_S369x1_0 : S369.BroadcastsInDim S369x1 (![0] : Fin 1 → Fin S369x1.rank)
  concatenates_S369x1_S369x1_S369x2_d1 : Shape.Concatenates [S369x1, S369x1] S369x2 1
  shapeCasts_S16384x81x81_S16384x6561 : S16384x81x81.ShapeCasts S16384x6561
  inb_S512x81_S512x81_0_0 : ∀ a, (![0, 0] : Fin 2 → Nat) a + S512x81.size a ≤ S512x81.size a
  h_S512x81 : 0 < S512x81.numel
  shapeCasts_S512x81_S512x81 : S512x81.ShapeCasts S512x81
  inb_S512x6561_S512x6561_0_0 : ∀ a, (![0, 0] : Fin 2 → Nat) a + S512x6561.size a ≤ S512x6561.size a
  h_S512x6561 : 0 < S512x6561.numel
  shapeCasts_S512x6561_S512x6561 : S512x6561.ShapeCasts S512x6561
  inb_S6561x81_S6561x81_0_0 : ∀ a, (![0, 0] : Fin 2 → Nat) a + S6561x81.size a ≤ S6561x81.size a
  h_S6561x81 : 0 < S6561x81.numel
  shapeCasts_S6561x81_S6561x81 : S6561x81.ShapeCasts S6561x81
  reduces_S512x81_S512 : S512x81.Reduces [1] S512
  shapeCasts_S512_S512x1 : S512.ShapeCasts S512x1
  inb_S81x32_S81x32_0_0 : ∀ a, (![0, 0] : Fin 2 → Nat) a + S81x32.size a ≤ S81x32.size a
  h_S81x32 : 0 < S81x32.numel
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  concatenates_S512x81_S512x47_S512x128_d1 : Shape.Concatenates [S512x81, S512x47] S512x128 1
  concatenates_S512x81_S512x1_S512x82_d1 : Shape.Concatenates [S512x81, S512x1] S512x82 1
  concatenates_S512x82_S512x46_S512x128_d1 : Shape.Concatenates [S512x82, S512x46] S512x128 1
  concatenates_S512x82_S512x1_S512x83_d1 : Shape.Concatenates [S512x82, S512x1] S512x83 1
  concatenates_S512x83_S512x45_S512x128_d1 : Shape.Concatenates [S512x83, S512x45] S512x128 1
  inb_S512x128_S512x128_0_0 : ∀ a, (![0, 0] : Fin 2 → Nat) a + S512x128.size a ≤ S512x128.size a
  h_S512x128 : 0 < S512x128.numel
  slices_S16384x128_S16384x81_0_0 : S16384x128.Slices ![0, 0] S16384x81
  slices_S16384x128_S16384x1_0_81 : S16384x128.Slices ![0, 81] S16384x1
  shapeCasts_S16384x1_S16384 : S16384x1.ShapeCasts S16384
  slices_S16384x128_S16384x1_0_82 : S16384x128.Slices ![0, 82] S16384x1
  shapeCasts_S1_S_ : S1.ShapeCasts S_
  bcast_S_S16384 : S_.BroadcastsInDim S16384 (![] : Fin 0 → Fin S16384.rank)
  scatter_S6561x81_S369x2_S369_n_01_01_1_wf : ScatterDims.WF S6561x81 S369x2 S369 [] [0, 1] [0, 1] 1
  dot_S512x6561_S6561x81_S512x81_1_0_0_1_n_n_wf : DotDims.WF S512x6561 S6561x81 S512x81 [1] [0] [0] [1] [] []
  dot_S512x81_S81x32_S512x32_1_0_0_1_n_n_wf : DotDims.WF S512x81 S81x32 S512x32 [1] [0] [0] [1] [] []
  dot_S512x32_S32x32_S512x32_1_0_0_1_n_n_wf : DotDims.WF S512x32 S32x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x81.size a ≤ S16384x81.size a
  hwx0_0 : ∀ i : grid0.Coords, EltTy.bits .f32 = 32 ∨ (Rect.block (s := S16384x81) S512x81.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x6561.size a ≤ S16384x6561.size a
  hwx0_1 : ∀ i : grid0.Coords, EltTy.bits .f32 = 32 ∨ (Rect.block (s := S16384x6561) S512x6561.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6561x81.size a ≤ S6561x81.size a
  hwx0_2 : ∀ i : grid0.Coords, EltTy.bits .f32 = 32 ∨ (Rect.block (s := S6561x81) S6561x81.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S81x32.size a ≤ S81x32.size a
  hwx0_3 : ∀ i : grid0.Coords, EltTy.bits .f32 = 32 ∨ (Rect.block (s := S81x32) S81x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S16384x128.size a
  hwx0_6 : ∀ i : grid0.Coords, EltTy.bits .f32 = 32 ∨ (Rect.block (s := S16384x128) S512x128.size (cc0_transform_6 i) (hinb0_6 i)).WholeWords (EltTy.packing .f32)

variable [Facts₀]

def scatter_S6561x81_S369x2_S369_n_01_01_1 : ScatterDims S6561x81 S369x2 S369 where
  updateWindowDims := []
  insertedWindowDims := [0, 1]
  scatterDimsToOperandDims := [0, 1]
  indexVectorDim := 1
  wf := scatter_S6561x81_S369x2_S369_n_01_01_1_wf
def dot_S512x6561_S6561x81_S512x81_1_0_0_1_n_n : DotDims S512x6561 S6561x81 S512x81 where
  lhsContracting := [1]
  rhsContracting := [0]
  lhsNonContracting := [0]
  rhsNonContracting := [1]
  lhsBatch := []
  rhsBatch := []
  wf := dot_S512x6561_S6561x81_S512x81_1_0_0_1_n_n_wf
def dot_S512x81_S81x32_S512x32_1_0_0_1_n_n : DotDims S512x81 S81x32 S512x32 where
  lhsContracting := [1]
  rhsContracting := [0]
  lhsNonContracting := [0]
  rhsNonContracting := [1]
  lhsBatch := []
  rhsBatch := []
  wf := dot_S512x81_S81x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_v0) S512x81.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x6561.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S6561x81.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S81x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x162 : Shape := ⟨2, ![16384, 162]⟩
abbrev S16384x81x81 : Shape := ⟨3, ![16384, 81, 81]⟩
abbrev S81x32 : Shape := ⟨2, ![81, 32]⟩
abbrev S32x32 : Shape := ⟨2, ![32, 32]⟩
abbrev S32x1 : Shape := ⟨2, ![32, 1]⟩
abbrev S1 : Shape := ⟨1, ![1]⟩
abbrev S369 : Shape := ⟨1, ![369]⟩
abbrev S16384x81 : Shape := ⟨2, ![16384, 81]⟩
abbrev S_ : Shape := ⟨0, ![]⟩
abbrev S369x1 : Shape := ⟨2, ![369, 1]⟩
abbrev S369x2 : Shape := ⟨2, ![369, 2]⟩
abbrev S16384x369 : Shape := ⟨2, ![16384, 369]⟩
abbrev S369x16384 : Shape := ⟨2, ![369, 16384]⟩
abbrev S81x16384 : Shape := ⟨2, ![81, 16384]⟩
abbrev S16384 : Shape := ⟨1, ![16384]⟩
abbrev S16384x32 : Shape := ⟨2, ![16384, 32]⟩
abbrev S16384x1 : Shape := ⟨2, ![16384, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x162, .f32⟩
  | .hbm, ⟨1, _⟩ => ⟨S16384x81x81, .f32⟩
  | .hbm, ⟨2, _⟩ => ⟨S81x32, .f32⟩
  | .hbm, ⟨3, _⟩ => ⟨S32x32, .f32⟩
  | .hbm, ⟨4, _⟩ => ⟨S32x1, .f32⟩
  | .hbm, ⟨5, _⟩ => ⟨S1, .f32⟩
  | .hbm, ⟨6, _⟩ => ⟨S369, .i32⟩
  | .hbm, ⟨7, _⟩ => ⟨S369, .i32⟩
  | .hbm, ⟨8, _⟩ => ⟨S369, .i32⟩
  | .hbm, ⟨9, _⟩ => ⟨S16384x81, .f32⟩
  | .hbm, ⟨10, _⟩ => ⟨S_, .i32⟩
  | .hbm, ⟨11, _⟩ => ⟨S369, .i32⟩
  | .hbm, ⟨12, _⟩ => ⟨S369, .i1⟩
  | .hbm, ⟨13, _⟩ => ⟨S_, .i32⟩
  | .hbm, ⟨14, _⟩ => ⟨S369, .i32⟩
  | .hbm, ⟨15, _⟩ => ⟨S369, .i32⟩
  | .hbm, ⟨16, _⟩ => ⟨S369, .i32⟩
  | .hbm, ⟨17, _⟩ => ⟨S_, .i32⟩
  | .hbm, ⟨18, _⟩ => ⟨S369, .i32⟩
  | .hbm, ⟨19, _⟩ => ⟨S369, .i1⟩
  | .hbm, ⟨20, _⟩ => ⟨S_, .i32⟩
  | .hbm, ⟨21, _⟩ => ⟨S369, .i32⟩
  | .hbm, ⟨22, _⟩ => ⟨S369, .i32⟩
  | .hbm, ⟨23, _⟩ => ⟨S369, .i32⟩
  | .hbm, ⟨24, _⟩ => ⟨S369x1, .i32⟩
  | .hbm, ⟨25, _⟩ => ⟨S369x1, .i32⟩
  | .hbm, ⟨26, _⟩ => ⟨S369x2, .i32⟩
  | .hbm, ⟨27, _⟩ => ⟨S16384x369, .f32⟩
  | .hbm, ⟨28, _⟩ => ⟨S369x16384, .f32⟩
  | .hbm, ⟨29, _⟩ => ⟨S_, .f32⟩
  | .hbm, ⟨30, _⟩ => ⟨S81x16384, .f32⟩
  | .hbm, ⟨31, _⟩ => ⟨S369x1, .i32⟩
  | .hbm, ⟨32, _⟩ => ⟨S81x16384, .f32⟩
  | .hbm, ⟨33, _⟩ => ⟨S16384x81, .f32⟩
  | .hbm, ⟨34, _⟩ => ⟨S16384x81, .f32⟩
  | .hbm, ⟨35, _⟩ => ⟨S_, .f32⟩
  | .hbm, ⟨36, _⟩ => ⟨S16384, .f32⟩
  | .hbm, ⟨37, _⟩ => ⟨S16384x32, .f32⟩
  | .hbm, ⟨38, _⟩ => ⟨S_, .f32⟩
  | .hbm, ⟨39, _⟩ => ⟨S16384x32, .f32⟩
  | .hbm, ⟨40, _⟩ => ⟨S16384x32, .f32⟩
  | .hbm, ⟨41, _⟩ => ⟨S16384x32, .f32⟩
  | .hbm, ⟨42, _⟩ => ⟨S_, .f32⟩
  | .hbm, ⟨43, _⟩ => ⟨S16384x32, .f32⟩
  | .hbm, ⟨44, _⟩ => ⟨S16384x32, .f32⟩
  | .hbm, ⟨45, _⟩ => ⟨S16384x1, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S16384, .f32⟩
  | _, _ => ⟨S16384x162, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  slices_S16384x162_S16384x81_0_81 : S16384x162.Slices ![0, 81] S16384x81
  bcast_S_S369 : S_.BroadcastsInDim S369 (![] : Fin 0 → Fin S369.rank)
  bcast_S369_S369x1_0 : S369.BroadcastsInDim S369x1 (![0] : Fin 1 → Fin S369x1.rank)
  concatenates_S369x1_S369x1_S369x2_d1 : Shape.Concatenates [S369x1, S369x1] S369x2 1
  transposes_S16384x369_S369x16384_1_0 : S16384x369.Transposes [1, 0] S369x16384
  bcast_S_S81x16384 : S_.BroadcastsInDim S81x16384 (![] : Fin 0 → Fin S81x16384.rank)
  transposes_S81x16384_S16384x81_1_0 : S81x16384.Transposes [1, 0] S16384x81
  reducesTo_S16384x81_S16384_d1 : S16384x81.ReducesTo [1] S16384
  h_S_ : 0 < S_.numel
  bcast_S_S16384x32 : S_.BroadcastsInDim S16384x32 (![] : Fin 0 → Fin S16384x32.rank)
  shapeCasts_S16384x1_S16384 : S16384x1.ShapeCasts S16384
  shapeCasts_S1_S_ : S1.ShapeCasts S_
  bcast_S_S16384 : S_.BroadcastsInDim S16384 (![] : Fin 0 → Fin S16384.rank)
  gather_S16384x81x81_S369x2_S16384x369_0_12_n_n_12_1_1638411_wf : GatherDims.WF S16384x81x81 S369x2 S16384x369 [0] [1, 2] [] [1, 2] [] 1 ![16384, 1, 1]
  scatter_S81x16384_S369x1_S369x16384_1_0_0_1_wf : ScatterDims.WF S81x16384 S369x1 S369x16384 [1] [0] [0] 1
  dot_S16384x81_S81x32_S16384x32_1_0_0_1_n_n_wf : DotDims.WF S16384x81 S81x32 S16384x32 [1] [0] [0] [1] [] []
  dot_S16384x32_S32x32_S16384x32_1_0_0_1_n_n_wf : DotDims.WF S16384x32 S32x32 S16384x32 [1] [0] [0] [1] [] []
  dot_S16384x32_S32x1_S16384x1_1_0_0_1_n_n_wf : DotDims.WF S16384x32 S32x1 S16384x1 [1] [0] [0] [1] [] []

variable [Facts₀]

def gather_S16384x81x81_S369x2_S16384x369_0_12_n_n_12_1_1638411 : GatherDims S16384x81x81 S369x2 S16384x369 where
  offsetDims := [0]
  collapsedSliceDims := [1, 2]
  operandBatchingDims := []
  startIndicesBatchingDims := []
  startIndexMap := [1, 2]
  indexVectorDim := 1
  sliceSizes := ![16384, 1, 1]
  wf := gather_S16384x81x81_S369x2_S16384x369_0_12_n_n_12_1_1638411_wf
def scatter_S81x16384_S369x1_S369x16384_1_0_0_1 : ScatterDims S81x16384 S369x1 S369x16384 where
  updateWindowDims := [1]
  insertedWindowDims := [0]
  scatterDimsToOperandDims := [0]
  indexVectorDim := 1
  wf := scatter_S81x16384_S369x1_S369x16384_1_0_0_1_wf
def dot_S16384x81_S81x32_S16384x32_1_0_0_1_n_n : DotDims S16384x81 S81x32 S16384x32 where
  lhsContracting := [1]
  rhsContracting := [0]
  lhsNonContracting := [0]
  rhsNonContracting := [1]
  lhsBatch := []
  rhsBatch := []
  wf := dot_S16384x81_S81x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.KerArr.lean ====
/-
  The kernel's output array, and the four results the host lines after the region cut out of it.

  The pallas_call's grid has 32 points; point t stores the [512, 128] block of rows 512 t … 512 t + 511 of the
  [16384, 128] output array, and the blocks tile the array. So after the region the array holds, at row b, what the
  body computed at point b / 512 in its row b % 512: one function of the input blocks, named here. The host lines
  after the region slice columns 0 … 80 (the inflow), column 81 (the reward) and column 82 (the last layer's product)
  out of it, add the bias to the last, and add the reward to that.
-/
import proofs.«429312_j33328946217236_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KerArr

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid has 32 points. -/
theorem N_eq : cfg0.N = 32 := rfl

/-- The output window's block index at point t is (t, 0). -/
theorem idx_facts6 : ∀ t : Fin cfg0.N, win0_6.index t (0 : Fin 2) = t.val ∧ win0_6.index t (1 : Fin 2) = 0 :=
  (by decide +kernel : ∀ t : Fin grid0.N, _)

/-- The point whose block holds a given row of the output array: row / 512. -/
def ptOf (i : S16384x128.Idx) : Fin cfg0.N :=
  ⟨(i 0).val / 512, by have h : (i 0).val < 16384 := (i 0).isLt; rw [N_eq]; omega⟩

/-- What the output array holds after the region: at (b, q), the body's result at point b / 512, in row b % 512
    and column q of its block. -/
def G6 (c : Dev nD) : S16384x128.Idx → EReal := fun i =>
  k0_pay1 (F := Ideal) (iblk m c 0 (ptOf i)) (iblk m c 1 (ptOf i)) (iblk m c 2 (ptOf i)) (iblk m c 3 (ptOf i))
    (iblk m c 4 (ptOf i)) (iblk m c 5 (ptOf i))
    (ix2 (⟨(i 0).val % 512, Nat.mod_lt _ (by decide)⟩ : Fin 512) (⟨(i 1).val, (i 1).isLt⟩ : Fin 128))

/-- The same, at an index given by its point, its row inside the block and its column. -/
theorem G6_at (c : Dev nD) (t : Fin cfg0.N) (i : S16384x128.Idx) (r : Fin 512) (q : Fin 128)
    (h0 : (i 0).val = t.val * 512 + r.val) (h1 : (i 1).val = q.val) :
    G6 m c i = k0_pay1 (F := Ideal) (iblk m c 0 t) (iblk m c 1 t) (iblk m c 2 t) (iblk m c 3 t) (iblk m c 4 t)
      (iblk m c 5 t) (ix2 r q) := by
  have hr : (i 0).val % 512 = r.val := by have := r.isLt; omega
  have hp : t = ptOf i := Fin.ext (by show t.val = (i 0).val / 512; have := r.isLt; omega)
  subst hp
  have hix : ix2 (⟨(i 0).val % 512, Nat.mod_lt _ (by decide)⟩ : Fin 512) (⟨(i 1).val, (i 1).isLt⟩ : Fin 128) = ix2 r q := by
    rw [show (⟨(i 0).val % 512, Nat.mod_lt _ (by decide)⟩ : Fin 512) = r from Fin.ext hr,
      show (⟨(i 1).val, (i 1).isLt⟩ : Fin 128) = q from Fin.ext h1]
  unfold G6
  rw [hix]

/-- What point t writes back is block t of that function. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz]
  simp only [View.ld_unit_zero (S := S512x81) hz, View.ld_unit_zero (S := S512x6561) hz, View.ld_unit_zero (S := S6561x81) hz,
    View.ld_unit_zero (S := S81x32) hz, View.ld_unit_zero (S := S32x32) hz, View.ld_unit_zero (S := S32x1) hz]
  funext j
  obtain ⟨e0, e1⟩ := idx_facts6 t
  have hj0 : (j 0).val < 512 := (j 0).isLt
  have hj1 : (j 1).val < 128 := (j 1).isLt
  show k0_pay1 (F := Ideal) (iblk m c 0 t) (iblk m c 1 t) (iblk m c 2 t) (iblk m c 3 t) (iblk m c 4 t) (iblk m c 5 t) j
    = G6 m c (((cfg0.win 6).blk t).view.emb j)
  rw [G6_at m c t _ ⟨(j 0).val, hj0⟩ ⟨(j 1).val, hj1⟩
    (by show win0_6.index t (0 : Fin 2) * 512 + 1 * (j 0).val = t.val * 512 + (j 0).val; rw [e0]; omega)
    (by show win0_6.index t (1 : Fin 2) * 128 + 1 * (j 1).val = (j 1).val; rw [e1]; omega)]
  congr 1
  exact eq_ix2 j

/-- An index of the array is in point t's block iff each coordinate is in the block's range on its axis. -/
theorem mem_blk6 (t : Fin cfg0.N) (i : S16384x128.Idx) :
    i ∈ ((cfg0.win 6).blk t).view.set ↔ ∀ a : Fin 2, win0_6.index t a * S512x128.size a ≤ (i a).val
      ∧ (i a).val < win0_6.index t a * S512x128.size a + S512x128.size a := by
  show i ∈ ((View.whole main_v21).slice (win0_6.rect t)).set ↔ _
  rw [View.set_slice_whole, Rect.mem_set_unit]
  exact Iff.rfl

/-- Every index of the array is in the block of the point its row names. -/
theorem cover6 (i : S16384x128.Idx) :
    ∃ t : Fin cfg0.N, (cfg0.win 6).flush t = true ∧ i ∈ ((cfg0.win 6).blk t).view.set := by
  refine ⟨ptOf i, flush0_6 _, ?_⟩
  rw [mem_blk6]
  obtain ⟨e0, e1⟩ := idx_facts6 (ptOf i)
  have hp : (ptOf i).val = (i 0).val / 512 := rfl
  have h1 : (i 1).val < 128 := (i 1).isLt
  intro a
  match a with
  | ⟨0, _⟩ =>
    show win0_6.index (ptOf i) (0 : Fin 2) * 512 ≤ (i 0).val ∧ (i 0).val < win0_6.index (ptOf i) (0 : Fin 2) * 512 + 512
    rw [e0, hp]; omega
  | ⟨1, _⟩ =>
    show win0_6.index (ptOf i) (1 : Fin 2) * 128 ≤ (i 1).val ∧ (i 1).val < win0_6.index (ptOf i) (1 : Fin 2) * 128 + 128
    rw [e1]; omega

/-- The output array after the region. -/
theorem final6 (c : Dev nD) : (dats m 0 c).arrAt 6 cfg0.N = G6 m c :=
  (dats m 0 c).arrAt_eq_of_cover 6 (G6 m c) (fun t _ => flushed6_eq m c t) cover6

/-! ## The host lines after the region -/

/-- After the region the output array's buffer holds that function. -/
theorem arr21 (c : Dev nD) :
    (Pipeline.withArrays (cfgs 0).spec c (V0 m c) (fun w => (dats m 0 c).arrAt w (cfgs 0).N) (Proc.devRef .tc main_v21)
      : S16384x128.Idx → EReal) = G6 m c :=
  (Pipeline.withArrays_arr spec0 launch0.win.arr_inj c _ _ 6).trans (final6 m c)

/-- And the bias argument is as launched. -/
theorem arg5_after (c : Dev nD) :
    (Pipeline.withArrays (cfgs 0).spec c (V0 m c) (fun w => (dats m 0 c).arrAt w (cfgs 0).N) (Proc.devRef .tc main_arg5)
      : S1.Idx → EReal) = m ((c : Thread nD τ).loc main_arg5) :=
  (Pipeline.withArrays_of_ne _ c (V0 m c) _ main_arg5 (by exact (by decide : ∀ w, Pipeline.arrRef spec0 w ≠ main_arg5))).trans
    (V_main_arg5 m c)

/-- Column q of a [16384, 128] array, cut out as a [16384, 1] column and flattened to a vector, read at b: entry (b, q). -/
theorem col_at (x : S16384x128.Idx → EReal) (q : Nat) (hq : q < 128) (h : S16384x128.Slices ![0, q] S16384x1)
    (h' : S16384x1.ShapeCasts S16384) (j : S16384.Idx) :
    shapeCast S16384 (extractStridedSlice S16384x1 ![0, q] x h) h' j
      = x (ix2 (⟨(j 0).val, (j 0).isLt⟩ : Fin 16384) (⟨q, hq⟩ : Fin 128)) := by
  rw [shapeCast_apply _ h' j (ix2 (⟨(j 0).val, (j 0).isLt⟩ : Fin 16384) (0 : Fin 1)) (by
    rw [Shape.rowMajor_val_two, Shape.rowMajor_val_one]
    show (j 0).val * 1 + 0 = (j 0).val
    omega)]
  exact extractStridedSlice_apply _ x h _ _ (fun a => match a with
    | ⟨0, _⟩ => by show (j 0).val = 0 + (j 0).val; omega
    | ⟨1, _⟩ => by show q = q + 0; omega)

/-- A one-element array has one index. -/
theorem S1_idx_eq (k k' : S1.Idx) : k = k' := funext fun a => Fin.ext (by
  match a with
  | ⟨0, _⟩ =>
    have h1 : (k 0).val < 1 := (k 0).isLt
    have h2 : (k' 0).val < 1 := (k' 0).isLt
    show (k 0).val = (k' 0).val
    omega)

/-- A one-element array, made a scalar and broadcast along a vector, reads its one element everywhere. -/
theorem bias_at (x : S1.Idx → EReal) (h : S1.ShapeCasts S_) (hb : S_.BroadcastsInDim S16384 (![] : Fin 0 → Fin S16384.rank))
    (j : S16384.Idx) : broadcastInDim S16384 ![] hb (shapeCast S_ x h) j = x (ix1 (0 : Fin 1)) := by
  rw [broadcastInDim_apply _ hb _ j ix0 (fun a => a.elim0)]
  unfold shapeCast
  exact congrArg x (S1_idx_eq _ _)

/-- The inflow result: columns 0 … 80 of the output array. -/
theorem tail_v22 (c : Dev nD) :
    (Pipeline.afterTail₀ cfgs (dats m) 0 (V0 m) [hostOps1] c main_v22 : S16384x81.Idx → EReal)
      = fun j : S16384x81.Idx => G6 m c (ix2 (⟨(j 0).val, (j 0).isLt⟩ : Fin 16384)
          (⟨(j 1).val, by have h : (j 1).val < 81 := (j 1).isLt; omega⟩ : Fin 128)) := by
  unfold Pipeline.afterTail₀
  show StableHlo.after hostOps1 _ (Proc.devRef .tc main_v22) = _
  after_results
  rw [arr21]
  funext j
  exact extractStridedSlice_apply _ _ _ j _ (fun a => match a with
    | ⟨0, _⟩ => by show (j 0).val = 0 + (j 0).val; omega
    | ⟨1, _⟩ => by show (j 1).val = 0 + (j 1).val; omega)

/-- The reward result: column 81. -/
theorem tail_v24 (c : Dev nD) :
    (Pipeline.afterTail₀ cfgs (dats m) 0 (V0 m) [hostOps1] c main_v24 : S16384.Idx → EReal)
      = fun j : S16384.Idx => G6 m c (ix2 (⟨(j 0).val, (j 0).isLt⟩ : Fin 16384) (⟨81, by decide⟩ : Fin 128)) := by
  unfold Pipeline.afterTail₀
  show StableHlo.after hostOps1 _ (Proc.devRef .tc main_v24) = _
  after_results
  rw [arr21]
  funext j
  exact col_at (G6 m c) 81 (by decide) _ _ j

/-- The return result: column 82 plus the bias. -/
theorem tail_v29 (c : Dev nD) :
    (Pipeline.afterTail₀ cfgs (dats m) 0 (V0 m) [hostOps1] c main_v29 : S16384.Idx → EReal)
      = fun j : S16384.Idx => G6 m c (ix2 (⟨(j 0).val, (j 0).isLt⟩ : Fin 16384) (⟨82, by decide⟩ : Fin 128))
          + m ((c : Thread nD τ).loc main_arg5) (ix1 (0 : Fin 1)) := by
  unfold Pipeline.afterTail₀
  show StableHlo.after hostOps1 _ (Proc.devRef .tc main_v29) = _
  after_results
  rw [arr21, arg5_after]
  funext j
  show shapeCast S16384 (extractStridedSlice S16384x1 ![0, 82] (G6 m c) _) _ j
      + broadcastInDim S16384 ![] _ (shapeCast S_ (m ((c : Thread nD τ).loc main_arg5)) _) j = _
  rw [col_at (G6 m c) 82 (by decide), bias_at]

/-- The value result: the reward plus the return. -/
theorem tail_v30 (c : Dev nD) :
    (Pipeline.afterTail₀ cfgs (dats m) 0 (V0 m) [hostOps1] c main_v30 : S16384.Idx → EReal)
      = fun j : S16384.Idx => G6 m c (ix2 (⟨(j 0).val, (j 0).isLt⟩ : Fin 16384) (⟨81, by decide⟩ : Fin 128))
          + (G6 m c (ix2 (⟨(j 0).val, (j 0).isLt⟩ : Fin 16384) (⟨82, by decide⟩ : Fin 128))
            + m ((c : Thread nD τ).loc main_arg5) (ix1 (0 : Fin 1))) := by
  unfold Pipeline.afterTail₀
  show StableHlo.after hostOps1 _ (Proc.devRef .tc main_v30) = _
  after_results
  rw [arr21, arg5_after]
  funext j
  show shapeCast S16384 (extractStridedSlice S16384x1 ![0, 81] (G6 m c) _) _ j
      + (shapeCast S16384 (extractStridedSlice S16384x1 ![0, 82] (G6 m c) _) _ j
        + broadcastInDim S16384 ![] _ (shapeCast S_ (m ((c : Thread nD τ).loc main_arg5)) _) j) = _
  rw [col_at (G6 m c) 81 (by decide), col_at (G6 m c) 82 (by decide), bias_at]

/-! ## The run, read -/

/-- Every weakly fair execution of the kernel program terminates with the four results at the columns of the output
    array the host lines cut out (and the bias added), and the argument arrays unchanged. -/
theorem run : θ_run defs (onTc (τ := τ) (main (F := Ideal))) ⟨m, fun _ => 0, ρ⟩ (fun r => ∀ c : Dev nD,
      r.2.mem ((c.tc : Thread nD τ).loc main_v30) = (fun j : S16384.Idx =>
          G6 m c (ix2 (⟨(j 0).val, (j 0).isLt⟩ : Fin 16384) (⟨81, by decide⟩ : Fin 128))
            + (G6 m c (ix2 (⟨(j 0).val, (j 0).isLt⟩ : Fin 16384) (⟨82, by decide⟩ : Fin 128))
              + m ((c : Thread nD τ).loc main_arg5) (ix1 (0 : Fin 1))))
      ∧ r.2.mem ((c.tc : Thread nD τ).loc main_v24) = (fun j : S16384.Idx =>
          G6 m c (ix2 (⟨(j 0).val, (j 0).isLt⟩ : Fin 16384) (⟨81, by decide⟩ : Fin 128)))
      ∧ r.2.mem ((c.tc : Thread nD τ).loc main_v29) = (fun j : S16384.Idx =>
          G6 m c (ix2 (⟨(j 0).val, (j 0).isLt⟩ : Fin 16384) (⟨82, by decide⟩ : Fin 128))
            + m ((c : Thread nD τ).loc main_arg5) (ix1 (0 : Fin 1)))
      ∧ r.2.mem ((c.tc : Thread nD τ).loc main_v22) = (fun j : S16384x81.Idx =>
          G6 m c (ix2 (⟨(j 0).val, (j 0).isLt⟩ : Fin 16384)
            (⟨(j 1).val, by have h : (j 1).val < 81 := (j 1).isLt; omega⟩ : Fin 128)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v30 (Pipeline.mem_restRefs_of main_v30 (by decide) (by decide))).trans (tail_v30 m c),
      ((h c).2 main_v24 (Pipeline.mem_restRefs_of main_v24 (by decide) (by decide))).trans (tail_v24 m c),
      ((h c).2 main_v29 (Pipeline.mem_restRefs_of main_v29 (by decide) (by decide))).trans (tail_v29 m c),
      ((h c).2 main_v22 (Pipeline.mem_restRefs_of main_v22 (by decide) (by decide))).trans (tail_v22 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KerArr

end
-- ==== Proof.LibLayoutAt.lean ====
/- Four layout operations read at an index written by its coordinates — general facts, about no particular program:
   the transpose of a matrix, a band of consecutive rows cut out of a matrix, two matrices of equal height joined side
   by side, and a matrix given a new unit axis in the middle. -/
import Idealize.ShloMosaic.Lib.ValueIdx
import Idealize.ShloMosaic.Lib.Pipeline.Value

namespace Cert.Lib.LayoutAt

open Idealize.ShloMosaic Idealize.ShloMosaic.ValueIdx

variable {α : Type}

/-- Entry (c, n) of the transpose is entry (n, c) of the matrix. -/
theorem transpose_at {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- Rows k … k + R − 1 of a matrix of R' rows, cut out as a matrix of R rows: entry (r, c) is entry (k + r, c). -/
theorem rowBand_at {R' R C k : Nat} (x : (⟨2, ![R', C]⟩ : Shape).Idx → α)
    (h : (⟨2, ![R', C]⟩ : Shape).Slices ![k, 0] ⟨2, ![R, C]⟩) (r : Fin R) (c : Fin C) (hr : k + r.val < R') :
    extractStridedSlice ⟨2, ![R, C]⟩ ![k, 0] x h (ix2 r c) = x (ix2 ⟨k + r.val, hr⟩ c) :=
  extractStridedSlice_apply _ x h _ _ (fun a => match a with
    | ⟨0, _⟩ => rfl
    | ⟨1, _⟩ => by show c.val = 0 + c.val; omega)

/-- Two matrices of N rows joined side by side, read in the LEFT part: the first matrix there. -/
theorem sideBySide_left {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : c.val < A) :
    concatenate ⟨2, ![N, W]⟩ 1 [⟨⟨2, ![N, A]⟩, x⟩, ⟨⟨2, ![N, B]⟩, y⟩] h (ix2 n c) = x (ix2 n ⟨c.val, hc⟩) :=
  concatenate_pair_apply_left 1 x y h (ix2 n c) rfl (ix2 n ⟨c.val, hc⟩) (fun b => match b with
    | ⟨0, _⟩ => rfl
    | ⟨1, _⟩ => rfl)

/-- Two matrices of N rows joined side by side, read in the RIGHT part: the second matrix, the first one's width less. -/
theorem sideBySide_right {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : A ≤ c.val)
    (hB : c.val - A < B) :
    concatenate ⟨2, ![N, W]⟩ 1 [⟨⟨2, ![N, A]⟩, x⟩, ⟨⟨2, ![N, B]⟩, y⟩] h (ix2 n c) = y (ix2 n ⟨c.val - A, hB⟩) :=
  concatenate_pair_apply_right 1 x y h (ix2 n c) rfl rfl (ix2 n ⟨c.val - A, hB⟩)
    (fun b hb => match b, hb with
      | ⟨0, _⟩, _ => rfl
      | ⟨1, _⟩, hb => absurd rfl hb)
    (by show c.val - A + A = c.val; omega)

/-- A matrix given a new unit axis in the middle: entry (n, z, c) is entry (n, c). -/
theorem midUnit_at {N C : Nat} (hN : N ≠ 1) (hC : C ≠ 1) (x : (⟨2, ![N, C]⟩ : Shape).Idx → α)
    (h : (⟨2, ![N, C]⟩ : Shape).BroadcastsInDim ⟨3, ![N, 1, C]⟩ (![0, 2] : Fin 2 → Fin 3)) (n : Fin N) (z : Fin 1) (c : Fin C) :
    broadcastInDim ⟨3, ![N, 1, C]⟩ (![0, 2] : Fin 2 → Fin 3) h x (ix3 n z c) = x (ix2 n c) :=
  broadcastInDim_apply _ h x _ (ix2 n c) (fun a => match a with
    | ⟨0, _⟩ => by show n.val = if N = 1 then 0 else n.val; rw [if_neg hN]
    | ⟨1, _⟩ => by show c.val = if C = 1 then 0 else c.val; rw [if_neg hC])

end Cert.Lib.LayoutAt
-- ==== Proof.KerBlocks.lean ====
/-
  The kernel's input blocks, read at an index.

  At grid point t (of 32) the kernel's first two windows are rows 512 t … 512 t + 511 of two matrices the host makes
  before the kernel runs: the right half of the observations (columns 81 … 161), and the action counts with their two
  trailing axes of 81 flattened row-major into one of 6561 (column f is the pair (f / 81, f % 81)). The third window is
  the whole 6561 × 81 matrix the host makes by adding ones into zeros at the index pairs (flat word, segment word), a
  negative word moved up by its axis' length first; the last three windows are the three weight matrices, whole.
  Each block is stated here as a function of the argument arrays alone.
-/
import proofs.«429312_j33328946217236_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«429312_j33328946217236_2_alg».proof.Proof.LibLayoutAt

noncomputable section

namespace Cert.KerBlocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

abbrev dblk (c : Dev nD) (t : Fin cfg0.N) : S512x81.Idx → EReal := iblk m c 0 t
abbrev ablk (c : Dev nD) (t : Fin cfg0.N) : S512x6561.Idx → EReal := iblk m c 1 t
abbrev mblk (c : Dev nD) (t : Fin cfg0.N) : S6561x81.Idx → EReal := iblk m c 2 t
abbrev w1blk (c : Dev nD) (t : Fin cfg0.N) : S81x32.Idx → EReal := iblk m c 3 t
abbrev w2blk (c : Dev nD) (t : Fin cfg0.N) : S32x32.Idx → EReal := iblk m c 4 t
abbrev w3blk (c : Dev nD) (t : Fin cfg0.N) : S32x1.Idx → EReal := iblk m c 5 t

/-! ## The arrays the host makes before the kernel -/

/-- The first window's array: the observations' columns from 81 on. -/
theorem V0e (c : Dev nD) : (V m c main_v0 : S16384x81.Idx → EReal)
    = extractStridedSlice S16384x81 ![0, 81] (m ((c : Thread nD τ).loc main_arg0)) slices_S16384x162_S16384x81_0_81 := by
  show StableHlo.after hostOps0 (fun b => m (c, b)) (Proc.devRef .tc main_v0) = _
  after_results

/-- The second window's array: the action counts, their two trailing axes flattened into one. -/
theorem V20e (c : Dev nD) : (V m c main_v20 : S16384x6561.Idx → EReal)
    = shapeCast S16384x6561 (m ((c : Thread nD τ).loc main_arg1)) shapeCasts_S16384x81x81_S16384x6561 := by
  show StableHlo.after hostOps0 (fun b => m (c, b)) (Proc.devRef .tc main_v20) = _
  after_results
  rfl

/-! ## The index maps, decided once over the grid -/

/-- The two row-banded windows sit at block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The four whole-array windows sit at block (0, 0). -/
theorem idx_facts_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The two row bands -/

/-- Entry (r, i) of the demand block at point t is the observation at row 512 t + r, column 81 + i: the block's row is
    the block index times 512 plus r, and the host's slice shifts the column by 81. -/
theorem dblk_apply (c : Dev nD) (t : Fin cfg0.N) (r : Fin 512) (i : Fin 81) (hb : 512 * t.val + r.val < 16384) :
    dblk m c t (ix2 r i) = m ((c : Thread nD τ).loc main_arg0) (ix2 ⟨512 * t.val + r.val, hb⟩ ⟨81 + i.val, by have := i.isLt; omega⟩) := by
  show V m c main_v0 (((cfg0.win 0).blk t).view.emb (ix2 r i)) = _
  rw [V0e]
  obtain ⟨e0, e1, -, -⟩ := idx_facts t
  refine extractStridedSlice_apply _ _ _ _ _ (fun a => ?_)
  match a with
  | ⟨0, _⟩ =>
    show 512 * t.val + r.val = 0 + (win0_0.index t (0 : Fin 2) * 512 + 1 * r.val)
    rw [e0]; omega
  | ⟨1, _⟩ =>
    show 81 + i.val = 81 + (win0_0.index t (1 : Fin 2) * 81 + 1 * i.val)
    rw [e1]; omega

/-- Entry (r, f) of the action-count block at point t is the action count at row 512 t + r and the pair (f / 81, f % 81):
    the flattening keeps the row-major position, ((row · 81) + f / 81) · 81 + f % 81 = row · 6561 + f. -/
theorem ablk_apply (c : Dev nD) (t : Fin cfg0.N) (r : Fin 512) (f : Fin 6561) (hb : 512 * t.val + r.val < 16384) :
    ablk m c t (ix2 r f) = m ((c : Thread nD τ).loc main_arg1) (ix3 ⟨512 * t.val + r.val, hb⟩ ⟨f.val / 81, by have := f.isLt; omega⟩ ⟨f.val % 81, Nat.mod_lt _ (by decide)⟩) := by
  show V m c main_v20 (((cfg0.win 1).blk t).view.emb (ix2 r f)) = _
  rw [V20e]
  obtain ⟨-, -, e0, e1⟩ := idx_facts t
  refine shapeCast_apply (s := S16384x81x81) (t := S16384x6561) _ _ _ _ ?_
  rw [Shape.rowMajor_val_two, Shape.rowMajor_val_three]
  show ((512 * t.val + r.val) * 81 + f.val / 81) * 81 + f.val % 81 = (win0_1.index t (0 : Fin 2) * 512 + 1 * r.val) * 6561 + (win0_1.index t (1 : Fin 2) * 6561 + 1 * f.val)
  rw [e0, e1]
  have := Nat.div_add_mod f.val 81
  omega

/-! ## The weight matrices, whole -/

/-- The block of the first weight matrix is the matrix: the window is the whole array, at block (0, 0). -/
theorem w1blk_eq (c : Dev nD) (t : Fin cfg0.N) : w1blk m c t = m ((c : Thread nD τ).loc main_arg2) := by
  funext j
  show V m c main_arg2 (((cfg0.win 3).blk t).view.emb j) = _
  rw [V_main_arg2]
  obtain ⟨-, -, e0, e1, -, -, -, -⟩ := idx_facts_whole t
  congr 1
  funext a; apply Fin.ext
  match a with
  | ⟨0, _⟩ => show win0_3.index t (0 : Fin 2) * 81 + 1 * (j 0).val = (j 0).val; rw [e0]; omega
  | ⟨1, _⟩ => show win0_3.index t (1 : Fin 2) * 32 + 1 * (j 1).val = (j 1).val; rw [e1]; omega

/-- The block of the second weight matrix is the matrix. -/
theorem w2blk_eq (c : Dev nD) (t : Fin cfg0.N) : w2blk m c t = m ((c : Thread nD τ).loc main_arg3) := by
  funext j
  show V m c main_arg3 (((cfg0.win 4).blk t).view.emb j) = _
  rw [V_main_arg3]
  obtain ⟨-, -, -, -, e0, e1, -, -⟩ := idx_facts_whole t
  congr 1
  funext a; apply Fin.ext
  match a with
  | ⟨0, _⟩ => show win0_4.index t (0 : Fin 2) * 32 + 1 * (j 0).val = (j 0).val; rw [e0]; omega
  | ⟨1, _⟩ => show win0_4.index t (1 : Fin 2) * 32 + 1 * (j 1).val = (j 1).val; rw [e1]; omega

/-- The block of the third weight matrix is the matrix. -/
theorem w3blk_eq (c : Dev nD) (t : Fin cfg0.N) : w3blk m c t = m ((c : Thread nD τ).loc main_arg4) := by
  funext j
  show V m c main_arg4 (((cfg0.win 5).blk t).view.emb j) = _
  rw [V_main_arg4]
  obtain ⟨-, -, -, -, -, -, e0, e1⟩ := idx_facts_whole t
  congr 1
  funext a; apply Fin.ext
  match a with
  | ⟨0, _⟩ => show win0_5.index t (0 : Fin 2) * 32 + 1 * (j 0).val = (j 0).val; rw [e0]; omega
  | ⟨1, _⟩ => show win0_5.index t (1 : Fin 2) * 1 + 1 * (j 1).val = (j 1).val; rw [e1]; omega

/-! ## The index pairs of the host's scatter -/

/-- The flat word of each edge: source word times 81 plus action word, in 32-bit arithmetic. -/
def flatw (src act : IVec S369 32) : IVec S369 32 :=
  addi (muli src (broadcastInDim S369 ![] bcast_S_S369 (constantI S_ 32 81#32))) act

/-- The row word the scatter is given: the flat word, moved up by 6561 when negative. -/
def rowsel (src act : IVec S369 32) : IVec S369 32 :=
  select (cmpi .slt (flatw src act) (broadcastInDim S369 ![] bcast_S_S369 (constantI S_ 32 0#32)))
    (addi (flatw src act) (broadcastInDim S369 ![] bcast_S_S369 (constantI S_ 32 6561#32))) (flatw src act)

/-- The column word the scatter is given: the segment word, moved up by 81 when negative. -/
def colsel (seg : IVec S369 32) : IVec S369 32 :=
  select (cmpi .slt seg (broadcastInDim S369 ![] bcast_S_S369 (constantI S_ 32 0#32)))
    (addi seg (broadcastInDim S369 ![] bcast_S_S369 (constantI S_ 32 81#32))) seg

/-- The index pairs from the three word vectors: the row words and the column words, each made a column, side by side. -/
def kidxOf (src act seg : IVec S369 32) : IVec S369x2 32 :=
  concatenate S369x2 1 [⟨S369x1, broadcastInDim S369x1 ![0] bcast_S369_S369x1_0 (rowsel src act)⟩,
    ⟨S369x1, broadcastInDim S369x1 ![0] bcast_S369_S369x1_0 (colsel seg)⟩] concatenates_S369x1_S369x1_S369x2_d1

/-- The three argument word vectors, at their literal type: the edges' source, action and segment words. -/
abbrev srcw (c : Dev nD) : IVec S369 32 := m ((c : Thread nD τ).loc main_arg6)
abbrev actw (c : Dev nD) : IVec S369 32 := m ((c : Thread nD τ).loc main_arg7)
abbrev segw (c : Dev nD) : IVec S369 32 := m ((c : Thread nD τ).loc main_arg8)

/-- The index pairs the host scatter is given, as one term of the argument words. -/
def kidx (c : Dev nD) : IVec S369x2 32 := kidxOf (srcw m c) (actw m c) (segw m c)

/-- A select on a signed comparison of two words is the conditional on that comparison. -/
theorem select_slt (x y a b : BitVec 32) : Scalar.select (IntOp.cmpi .slt x y) a b = if BitVec.slt x y then a else b := by
  unfold Scalar.select IntOp.cmpi
  cases h : BitVec.slt x y <;> simp

/-- A vector made a column, read at (e, 0), is the vector at e. -/
theorem column_at (x : IVec S369 32) (e : Fin 369) (z : Fin 1) :
    broadcastInDim S369x1 ![0] bcast_S369_S369x1_0 x (ix2 e z) = x (ix1 e) :=
  broadcastInDim_apply _ _ x _ (ix1 e) (fun a => match a with
    | ⟨0, h0⟩ => by
      have hne : ¬ (S369.size ⟨0, h0⟩ = 1) := by show ¬ ((369 : Nat) = 1); decide
      exact (if_neg hne).symm)

/-- The row word of pair e, in closed form. -/
theorem kidxOf_row (src act seg : IVec S369 32) (e : Fin 369) : kidxOf src act seg (ix2 e (0 : Fin 2))
    = (let w := src (ix1 e) * 81#32 + act (ix1 e); if BitVec.slt w 0#32 then w + 6561#32 else w) := by
  unfold kidxOf
  rw [Cert.Lib.LayoutAt.sideBySide_left _ _ _ e (0 : Fin 2) (by decide), column_at]
  exact select_slt _ _ _ _

/-- The column word of pair e, in closed form. -/
theorem kidxOf_col (src act seg : IVec S369 32) (e : Fin 369) : kidxOf src act seg (ix2 e (1 : Fin 2))
    = (let w := seg (ix1 e); if BitVec.slt w 0#32 then w + 81#32 else w) := by
  unfold kidxOf
  rw [Cert.Lib.LayoutAt.sideBySide_right _ _ _ e (1 : Fin 2) (by decide) (by decide), column_at]
  exact select_slt _ _ _ _

/-- The row word of pair e of the kernel's index pairs: the flat word source · 81 + action of edge e, plus 6561 when negative. -/
theorem kidx_row (c : Dev nD) (e : Fin 369) : kidx m c (ix2 e (0 : Fin 2))
    = (let w := srcw m c (ix1 e) * 81#32 + actw m c (ix1 e); if BitVec.slt w 0#32 then w + 6561#32 else w) :=
  kidxOf_row _ _ _ e

/-- The column word of pair e of the kernel's index pairs: the segment word of edge e, plus 81 when negative. -/
theorem kidx_col (c : Dev nD) (e : Fin 369) : kidx m c (ix2 e (1 : Fin 2))
    = (let w := segw m c (ix1 e); if BitVec.slt w 0#32 then w + 81#32 else w) :=
  kidxOf_col _ _ _ e

/-! ## The scatter matrix -/

set_option maxHeartbeats 8000000 in
/-- The third window's array: the host's scatter-add, into a constant-zero matrix, of a constant-one vector at the index
    pairs. What a buffer holds after the host operations is what the last operation writing it computes from the buffers
    it reads; followed from the scatter back to the arguments, this gives the term. -/
theorem V19e (c : Dev nD) : (V m c main_v19 : S6561x81.Idx → EReal)
    = Host.scatterAdd (F := Ideal) scatter_S6561x81_S369x2_S369_n_01_01_1
        (broadcastInDim S6561x81 ![] bcast_S_S6561x81 (constant (F := Ideal) S_ .f32 0x00000000#32))
        (kidx m c)
        (broadcastInDim S369 ![] bcast_S_S369 (constant (F := Ideal) S_ .f32 0x3F800000#32)) := by
  show StableHlo.after hostOps0 (fun b => m (c, b)) (Proc.devRef .tc main_v19) = _
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rfl

/-- The scatter matrix's block is the whole matrix, and the matrix is the exact scatter-add of ones into zeros at the
    index pairs: the two constants' bit patterns are the extended reals 0 and 1. -/
theorem mblk_eq (c : Dev nD) (t : Fin cfg0.N) :
    mblk m c t = Ideal.hostScatterAdd scatter_S6561x81_S369x2_S369_n_01_01_1 (fun _ => 0) (kidx m c) (fun _ => 1) := by
  funext j
  show V m c main_v19 (((cfg0.win 2).blk t).view.emb j) = _
  obtain ⟨e0, e1, -, -, -, -, -, -⟩ := idx_facts_whole t
  have hemb : ((cfg0.win 2).blk t).view.emb j = j := by
    funext a; apply Fin.ext
    match a with
    | ⟨0, _⟩ => show win0_2.index t (0 : Fin 2) * 6561 + 1 * (j 0).val = (j 0).val; rw [e0]; omega
    | ⟨1, _⟩ => show win0_2.index t (1 : Fin 2) * 81 + 1 * (j 1).val = (j 1).val; rw [e1]; omega
  rw [hemb, V19e]
  have h0 : (broadcastInDim S6561x81 ![] bcast_S_S6561x81 (constant (F := Ideal) S_ .f32 0x00000000#32) : S6561x81.Idx → EReal)
      = fun _ => 0 := funext fun _ => Ideal.ofBits_zero_f32
  have h1 : (broadcastInDim S369 ![] bcast_S_S369 (constant (F := Ideal) S_ .f32 0x3F800000#32) : S369.Idx → EReal)
      = fun _ => 1 := funext fun _ => Ideal.ofBits_one_f32
  rw [h0, h1]
  rfl

end Cert.KerBlocks

end
-- ==== Proof.LibClampIx.lean ====
/-! # A gather's start index: a 32-bit word read signed and clamped into an axis

StableHLO's gather reads each component of a start index as a signed integer and clamps it into
`[0, size − slice size]`. On an axis of `U` positions whose slice has one position that is
`min (max w 0) (U − 1)`: `Int.toNat` sends the negative words to `0`, `min` cuts at `U − 1`. This file names
that position as an element of `Fin U`, so that two programs gathering along the same axis are seen to read
the same place, and records two facts about words that already lie on the axis. -/

namespace Cert.Hand

/-- The position on an axis of `U` places that the word `w`, read signed, is clamped to. -/
def clampIx (U : Nat) (hU : 0 < U) (w : BitVec 32) : Fin U := ⟨min w.toInt.toNat (U - 1), by omega⟩

theorem clampIx_val (U : Nat) (hU : 0 < U) (w : BitVec 32) :
    (clampIx U hU w).val = min w.toInt.toNat (U - 1) := rfl

/-- A word that lies on the axis is its own clamped position. -/
theorem clampIx_val_of_mem (U : Nat) (hU : 0 < U) (w : BitVec 32) (h0 : 0 ≤ w.toInt) (hlt : w.toInt < (U : Int)) :
    (clampIx U hU w).val = w.toInt.toNat := by
  rw [clampIx_val]
  have : w.toInt.toNat < U := by omega
  omega

/-- As an integer, too. -/
theorem clampIx_val_int_of_mem (U : Nat) (hU : 0 < U) (w : BitVec 32) (h0 : 0 ≤ w.toInt) (hlt : w.toInt < (U : Int)) :
    ((clampIx U hU w).val : Int) = w.toInt := by
  rw [clampIx_val_of_mem U hU w h0 hlt]; omega

/-- A word that is not negative as a signed integer is not signed-below zero. -/
theorem slt_zero_of_nonneg (w : BitVec 32) (h0 : 0 ≤ w.toInt) : BitVec.slt w 0#32 = false := by
  simp only [BitVec.slt, BitVec.toInt_zero]
  exact decide_eq_false (by omega)

/-- The normalisation of a possibly negative position — add the axis' length to a word below zero — leaves a
    word that is not negative alone. -/
theorem wrap_of_nonneg (w u : BitVec 32) (h0 : 0 ≤ w.toInt) : (if BitVec.slt w 0#32 then w + u else w) = w := by
  rw [slt_zero_of_nonneg w h0]; rfl

end Cert.Hand
-- ==== Proof.Spec.lean ====
/-
  What the two programs compute, written once over abstract arrays on the extended reals.

  A batch row b has an inflow vector n b : one number per node i of the 9 × 9 grid, the sum over the edges e whose
  segment word is i of the action count at (b, src e, act e). From a row's inflow and its demand row everything else
  is a function of that ONE row: the reward is the sum over the nodes of min (inflow, demand); two hidden layers are
  max (· , 0) of a product with a weight matrix; the return is the last layer's product with a column, plus a bias.
  Both programs apply these row functions; they differ only in how a row's inflow is obtained.
-/
import Idealize.ShloMosaic.PureOps.Ideal
import Idealize.ShloMosaic.Lib.ValueIdx
import proofs.«429312_j33328946217236_2_alg».proof.Proof.LibClampIx

noncomputable section

namespace Cert.Spec

open Idealize.ShloMosaic Idealize.ShloMosaic.ValueIdx Cert.Hand

/-- Every word of an index vector names a position of an axis of 81 places. -/
def InRange (w : (⟨1, ![369]⟩ : Shape).Idx → BitVec 32) : Prop :=
  ∀ e : Fin 369, 0 ≤ (w (ix1 e)).toInt ∧ (w (ix1 e)).toInt < 81

/-- Every entry is a real number. -/
def Finite {s : Shape} (x : s.Idx → EReal) : Prop := ∀ j, ∃ r : ℝ, x j = (r : EReal)

/-- A row's reward: the nodes' min (inflow, demand), summed. -/
def rewardRow (n dem : Fin 81 → EReal) : EReal := ∑ i : Fin 81, min (n i) (dem i)

/-- The first hidden layer of a row. -/
def hid1 (n : Fin 81 → EReal) (W1 : (⟨2, ![81, 32]⟩ : Shape).Idx → EReal) (k : Fin 32) : EReal :=
  max (∑ i : Fin 81, n i * W1 (ix2 i k)) 0

/-- The second hidden layer of a row. -/
def hid2 (n : Fin 81 → EReal) (W1 : (⟨2, ![81, 32]⟩ : Shape).Idx → EReal) (W2 : (⟨2, ![32, 32]⟩ : Shape).Idx → EReal)
    (k : Fin 32) : EReal :=
  max (∑ j : Fin 32, hid1 n W1 j * W2 (ix2 j k)) 0

/-- The last layer of a row, before the bias. -/
def linRow (n : Fin 81 → EReal) (W1 : (⟨2, ![81, 32]⟩ : Shape).Idx → EReal) (W2 : (⟨2, ![32, 32]⟩ : Shape).Idx → EReal)
    (W3 : (⟨2, ![32, 1]⟩ : Shape).Idx → EReal) : EReal :=
  ∑ j : Fin 32, hid2 n W1 W2 j * W3 (ix2 j (0 : Fin 1))

/-- The inflow of node i in batch row b: over the edges whose segment word is i, the action count at the edge's
    (source, action) pair, each word read signed and clamped into its axis. -/
def nsc (ac : (⟨3, ![16384, 81, 81]⟩ : Shape).Idx → EReal) (src act seg : (⟨1, ![369]⟩ : Shape).Idx → BitVec 32)
    (b : Fin 16384) (i : Fin 81) : EReal :=
  ∑ e ∈ Finset.univ.filter (fun e : Fin 369 => (seg (ix1 e)).toInt = (i.val : Int)),
    ac (ix3 b (clampIx 81 (by decide) (src (ix1 e))) (clampIx 81 (by decide) (act (ix1 e))))

/-- The demand of node i in batch row b: the second half of the observation row. -/
def dem (obs : (⟨2, ![16384, 162]⟩ : Shape).Idx → EReal) (b : Fin 16384) (i : Fin 81) : EReal :=
  obs (ix2 b ⟨81 + i.val, by have := i.isLt; omega⟩)

end Cert.Spec

end
-- ==== Proof.LibPlainProduct.lean ====
/- The plain product of an M×K array by a K×N array on the extended reals, accumulated into the all-zero array and
   read at an entry (r, c): the sum over the contracted coordinate k of A (r, k) · B (k, c). A general fact, about no
   particular program. -/
import Idealize.ShloMosaic.PureOps.Ideal.Laws
import Idealize.ShloMosaic.Lib.ValueIdx
import Idealize.ShloMosaic.Lib.StackMember

noncomputable section

namespace Cert.Lib.PlainProduct

open Idealize.ShloMosaic Idealize.ShloMosaic.ValueIdx

/-- Into the zero accumulator a matrix product is the host's product with the same dimension record (both are the sum
    of the operands' products over the contraction index), and the host's plain product at an entry is the sum over
    the contracted coordinate. -/
theorem matmul_zero_plain_apply {M K N : Nat} {φ₁ φ₂ : FTy} (A : FVec Ideal ⟨2, ![M, K]⟩ φ₁) (B : FVec Ideal ⟨2, ![K, N]⟩ φ₂)
    (r : Fin M) (c : Fin N) :
    matmul (F := Ideal) (DotDims.plain M K N) none A B (constant ⟨2, ![M, N]⟩ .f32 0x00000000#32) (ix2 r c)
      = ∑ k : Fin K, A (ix2 r k) * B (ix2 k c) := by
  have h : matmul (F := Ideal) (DotDims.plain M K N) none A B (constant ⟨2, ![M, N]⟩ .f32 0x00000000#32)
      = Host.dotGeneral (F := Ideal) (DotDims.plain M K N) none A B := by
    funext j
    simp only [matmul, Host.dotGeneral]
    rw [Ideal.matmul_constant_zero_apply, Ideal.dotGeneral_apply]
  rw [h]
  exact StackMember.dotGeneral_plain_apply none A B r c

end Cert.Lib.PlainProduct

end
-- ==== Proof.KerPayload.lean ====
/-
  The kernel body's stored block read at an index. On one block of 512 batch rows the body forms the inflow
  n = x1 · x2 (a matrix product into the zero accumulator), the reward (the row sums of min (n, x0)), two hidden layers
  max (n · x3, 0) and max (h1 · x4, 0), the last layer lin = h2 · x5, and stores the 512 × 128 block that holds n in
  columns 0 … 80, the reward in column 81 and lin in column 82, each as a sum of three zero-padded blocks. Here the block
  is read at those columns: column i < 81 is the inflow of node i, column 81 the row's reward, column 82 the row's last
  layer, as the specification writes them.
-/
import proofs.«429312_j33328946217236_2_alg».proof.Proof.Gen.KernelIdeal.Skeleton
import proofs.«429312_j33328946217236_2_alg».proof.Proof.Spec
import proofs.«429312_j33328946217236_2_alg».proof.Proof.LibPlainProduct
import proofs.«429312_j33328946217236_2_alg».proof.Proof.LibLayoutAt
import Idealize.ShloMosaic.PureOps.Ideal.Laws
import Idealize.ShloMosaic.Lib.ValueIdx
import Idealize.ShloMosaic.Lib.Pipeline.Value
import Idealize.ShloMosaic.Lib.ValueLayout

noncomputable section

namespace Cert.KerPayload

open Cert.KernelIdeal Cert.KernelIdeal.Gen Idealize.ShloMosaic Idealize.ShloMosaic.ValueIdx

/-- A block row's inflow as the kernel computes it: the row of flattened action counts times the edge-count matrix. -/
def nK (x1 : Vec Ideal S512x6561 .f32) (x2 : Vec Ideal S6561x81 .f32) (r : Fin 512) (i : Fin 81) : EReal :=
  ∑ f : Fin 6561, x1 (ix2 r f) * x2 (ix2 f i)

/-! ## The four matrix products at an entry -/

/-- Each of the four dimension records is the plain product's record. -/
theorem dotA_eq : dot_S512x6561_S6561x81_S512x81_1_0_0_1_n_n = DotDims.plain 512 6561 81 := rfl
theorem dotB_eq : dot_S512x81_S81x32_S512x32_1_0_0_1_n_n = DotDims.plain 512 81 32 := rfl
theorem dotC_eq : dot_S512x32_S32x32_S512x32_1_0_0_1_n_n = DotDims.plain 512 32 32 := rfl
theorem dotD_eq : dot_S512x32_S32x1_S512x1_1_0_0_1_n_n = DotDims.plain 512 32 1 := rfl

/-- The inflow product at (r, c). -/
theorem mmA_apply (A : FVec Ideal S512x6561 .f32) (B : FVec Ideal S6561x81 .f32) (r : Fin 512) (c : Fin 81) :
    matmul (F := Ideal) dot_S512x6561_S6561x81_S512x81_1_0_0_1_n_n none A B (constant (F := Ideal) S512x81 .f32 0x00000000#32) (ix2 r c)
      = ∑ k : Fin 6561, A (ix2 r k) * B (ix2 k c) := by
  rw [dotA_eq]; exact Cert.Lib.PlainProduct.matmul_zero_plain_apply A B r c

/-- The first layer's product at (r, c). -/
theorem mmB_apply (A : FVec Ideal S512x81 .f32) (B : FVec Ideal S81x32 .f32) (r : Fin 512) (c : Fin 32) :
    matmul (F := Ideal) dot_S512x81_S81x32_S512x32_1_0_0_1_n_n none A B (constant (F := Ideal) S512x32 .f32 0x00000000#32) (ix2 r c)
      = ∑ k : Fin 81, A (ix2 r k) * B (ix2 k c) := by
  rw [dotB_eq]; exact Cert.Lib.PlainProduct.matmul_zero_plain_apply A B r c

/-- The second layer's product at (r, c). -/
theorem mmC_apply (A : FVec Ideal S512x32 .f32) (B : FVec Ideal S32x32 .f32) (r : Fin 512) (c : Fin 32) :
    matmul (F := Ideal) dot_S512x32_S32x32_S512x32_1_0_0_1_n_n none A B (constant (F := Ideal) S512x32 .f32 0x00000000#32) (ix2 r c)
      = ∑ k : Fin 32, A (ix2 r k) * B (ix2 k c) := by
  rw [dotC_eq]; exact Cert.Lib.PlainProduct.matmul_zero_plain_apply A B r c

/-- The last layer's product at (r, c). -/
theorem mmD_apply (A : FVec Ideal S512x32 .f32) (B : FVec Ideal S32x1 .f32) (r : Fin 512) (c : Fin 1) :
    matmul (F := Ideal) dot_S512x32_S32x1_S512x1_1_0_0_1_n_n none A B (constant (F := Ideal) S512x1 .f32 0x00000000#32) (ix2 r c)
      = ∑ k : Fin 32, A (ix2 r k) * B (ix2 k c) := by
  rw [dotD_eq]; exact Cert.Lib.PlainProduct.matmul_zero_plain_apply A B r c

/-! ## The row sum and the column cast -/

/-- The reduced index r with column k put back is (r, k). -/
theorem lift_row (h : S512x81.Reduces [1] S512) (r : Fin 512) (k : Fin (S512x81.size 1)) :
    h.lift (ix1 r) k = ix2 r (⟨k.val, k.isLt⟩ : Fin 81) := by
  funext c; apply Fin.ext
  fin_cases c <;> rfl

/-- The sum over the columns of a 512 × 81 array at row r. -/
theorem rowSum_apply (v : FVec Ideal S512x81 .f32) (acc : BitVec FTy.f32.bits) (h : S512x81.Reduces [1] S512)
    (hφ : FKind.Formats .f32) (hacc : acc = FKind.add.neutral .f32 hφ) (r : Fin 512) :
    multiReduction (F := Ideal) .add [1] S512 v acc h hφ hacc (ix1 r) = ∑ k : Fin 81, v (ix2 r k) := by
  rw [Ideal.multiReduction_add_single]
  exact Finset.sum_congr rfl (fun k _ => congrArg v (lift_row h r k))

/-- A vector of 512 entries cast to a column reads, at (r, z), its entry r. -/
theorem colCast_apply {α : Type} (x : S512.Idx → α) (h : S512.ShapeCasts S512x1) (r : Fin 512) (z : Fin 1) :
    shapeCast S512x1 x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-! ## The body's pieces, named -/

/-- The integer zero converted to a float is the extended real 0. -/
theorem sitofp_zero : Scalar.sitofp (F := Ideal) .f32 0#32 = (0 : EReal) := by
  simp [Ideal.scalar_sitofp_def]

/-- The inflow block as the body forms it. -/
def nV (x1 : FVec Ideal S512x6561 .f32) (x2 : FVec Ideal S6561x81 .f32) : FVec Ideal S512x81 .f32 :=
  matmul (F := Ideal) dot_S512x6561_S6561x81_S512x81_1_0_0_1_n_n none
    (shapeCast S512x6561 x1 shapeCasts_S512x6561_S512x6561) (shapeCast S6561x81 x2 shapeCasts_S6561x81_S6561x81)
    (constant (F := Ideal) S512x81 .f32 0x00000000#32)

/-- The reward column as the body forms it. -/
def rwV (x0 : FVec Ideal S512x81 .f32) (x1 : FVec Ideal S512x6561 .f32) (x2 : FVec Ideal S6561x81 .f32) : FVec Ideal S512x1 .f32 :=
  shapeCast S512x1
    (multiReduction (F := Ideal) .add [1] S512 (minimumf (nV x1 x2) (shapeCast S512x81 x0 shapeCasts_S512x81_S512x81))
      0x00000000#32 reduces_S512x81_S512 (.inl rfl) rfl)
    shapeCasts_S512_S512x1

/-- The first hidden layer as the body forms it. -/
def h1V (x1 : FVec Ideal S512x6561 .f32) (x2 : FVec Ideal S6561x81 .f32) (x3 : FVec Ideal S81x32 .f32) : FVec Ideal S512x32 .f32 :=
  maximumf (matmul (F := Ideal) dot_S512x81_S81x32_S512x32_1_0_0_1_n_n none (nV x1 x2) x3 (constant (F := Ideal) S512x32 .f32 0x00000000#32))
    (broadcast S512x32 (Scalar.ofBits (F := Ideal) .f32 0x00000000#32))

/-- The second hidden layer as the body forms it. -/
def h2V (x1 : FVec Ideal S512x6561 .f32) (x2 : FVec Ideal S6561x81 .f32) (x3 : FVec Ideal S81x32 .f32) (x4 : FVec Ideal S32x32 .f32) :
    FVec Ideal S512x32 .f32 :=
  maximumf (matmul (F := Ideal) dot_S512x32_S32x32_S512x32_1_0_0_1_n_n none (h1V x1 x2 x3) x4 (constant (F := Ideal) S512x32 .f32 0x00000000#32))
    (broadcast S512x32 (Scalar.ofBits (F := Ideal) .f32 0x00000000#32))

/-- The last layer's column as the body forms it. -/
def linV (x1 : FVec Ideal S512x6561 .f32) (x2 : FVec Ideal S6561x81 .f32) (x3 : FVec Ideal S81x32 .f32) (x4 : FVec Ideal S32x32 .f32)
    (x5 : FVec Ideal S32x1 .f32) : FVec Ideal S512x1 .f32 :=
  matmul (F := Ideal) dot_S512x32_S32x1_S512x1_1_0_0_1_n_n none (h2V x1 x2 x3 x4) x5 (constant (F := Ideal) S512x1 .f32 0x00000000#32)

/-- The stored block: three zero-padded blocks added, holding n in columns 0 … 80, a column at 81 and a column at 82. -/
def blk (n : FVec Ideal S512x81 .f32) (rwd ln : FVec Ideal S512x1 .f32) : FVec Ideal S512x128 .f32 :=
  addf
    (addf
      (concatenate S512x128 1 [⟨S512x81, n⟩, ⟨S512x47, broadcast S512x47 (Scalar.sitofp (F := Ideal) .f32 0#32)⟩]
        concatenates_S512x81_S512x47_S512x128_d1)
      (concatenate S512x128 1
        [⟨S512x82, concatenate S512x82 1 [⟨S512x81, broadcast S512x81 (Scalar.sitofp (F := Ideal) .f32 0#32)⟩, ⟨S512x1, rwd⟩]
            concatenates_S512x81_S512x1_S512x82_d1⟩,
          ⟨S512x46, broadcast S512x46 (Scalar.sitofp (F := Ideal) .f32 0#32)⟩]
        concatenates_S512x82_S512x46_S512x128_d1))
    (concatenate S512x128 1
      [⟨S512x83, concatenate S512x83 1 [⟨S512x82, broadcast S512x82 (Scalar.sitofp (F := Ideal) .f32 0#32)⟩, ⟨S512x1, ln⟩]
          concatenates_S512x82_S512x1_S512x83_d1⟩,
        ⟨S512x45, broadcast S512x45 (Scalar.sitofp (F := Ideal) .f32 0#32)⟩]
      concatenates_S512x83_S512x45_S512x128_d1)

/-- The body's payload is the stored block of its pieces. -/
theorem pay_eq_blk (x0 : FVec Ideal S512x81 .f32) (x1 : FVec Ideal S512x6561 .f32) (x2 : FVec Ideal S6561x81 .f32)
    (x3 : FVec Ideal S81x32 .f32) (x4 : FVec Ideal S32x32 .f32) (x5 : FVec Ideal S32x1 .f32) :
    k0_pay1 (F := Ideal) x0 x1 x2 x3 x4 x5 = blk (nV x1 x2) (rwV x0 x1 x2) (linV x1 x2 x3 x4 x5) := rfl

/-! ## The pieces at an entry -/

/-- The inflow block at (r, i). -/
theorem nV_apply (x1 : FVec Ideal S512x6561 .f32) (x2 : FVec Ideal S6561x81 .f32) (r : Fin 512) (i : Fin 81) :
    nV x1 x2 (ix2 r i) = nK x1 x2 r i := by
  unfold nV nK
  rw [shapeCast_self, shapeCast_self]
  exact mmA_apply x1 x2 r i

/-- The reward column at (r, z). -/
theorem rwV_apply (x0 : FVec Ideal S512x81 .f32) (x1 : FVec Ideal S512x6561 .f32) (x2 : FVec Ideal S6561x81 .f32) (r : Fin 512) (z : Fin 1) :
    rwV x0 x1 x2 (ix2 r z) = Cert.Spec.rewardRow (nK x1 x2 r) (fun i => x0 (ix2 r i)) := by
  unfold rwV Cert.Spec.rewardRow
  refine (colCast_apply _ _ r z).trans ?_
  refine (rowSum_apply _ _ _ _ _ r).trans ?_
  refine Finset.sum_congr rfl (fun k _ => ?_)
  rw [minimumf_apply, nV_apply, shapeCast_self]

/-- The first hidden layer at (r, k). -/
theorem h1V_apply (x1 : FVec Ideal S512x6561 .f32) (x2 : FVec Ideal S6561x81 .f32) (x3 : FVec Ideal S81x32 .f32) (r : Fin 512) (k : Fin 32) :
    h1V x1 x2 x3 (ix2 r k) = Cert.Spec.hid1 (nK x1 x2 r) x3 k := by
  unfold h1V Cert.Spec.hid1
  rw [maximumf_apply, mmB_apply, broadcast_apply]
  have hz : Scalar.ofBits (F := Ideal) .f32 0x00000000#32 = (0 : EReal) := Ideal.ofBits_zero_f32
  rw [hz]
  refine congrArg (fun t => max t (0 : EReal)) (Finset.sum_congr rfl (fun i _ => ?_))
  rw [nV_apply]

/-- The second hidden layer at (r, k). -/
theorem h2V_apply (x1 : FVec Ideal S512x6561 .f32) (x2 : FVec Ideal S6561x81 .f32) (x3 : FVec Ideal S81x32 .f32) (x4 : FVec Ideal S32x32 .f32)
    (r : Fin 512) (k : Fin 32) :
    h2V x1 x2 x3 x4 (ix2 r k) = Cert.Spec.hid2 (nK x1 x2 r) x3 x4 k := by
  unfold h2V Cert.Spec.hid2
  rw [maximumf_apply, mmC_apply, broadcast_apply]
  have hz : Scalar.ofBits (F := Ideal) .f32 0x00000000#32 = (0 : EReal) := Ideal.ofBits_zero_f32
  rw [hz]
  refine congrArg (fun t => max t (0 : EReal)) (Finset.sum_congr rfl (fun j _ => ?_))
  rw [h1V_apply]

/-- The last layer's column at (r, z). -/
theorem linV_apply (x1 : FVec Ideal S512x6561 .f32) (x2 : FVec Ideal S6561x81 .f32) (x3 : FVec Ideal S81x32 .f32) (x4 : FVec Ideal S32x32 .f32)
    (x5 : FVec Ideal S32x1 .f32) (r : Fin 512) (z : Fin 1) :
    linV x1 x2 x3 x4 x5 (ix2 r z) = Cert.Spec.linRow (nK x1 x2 r) x3 x4 x5 := by
  have hz : z = (0 : Fin 1) := Subsingleton.elim _ _
  subst hz
  unfold linV Cert.Spec.linRow
  rw [mmD_apply]
  refine Finset.sum_congr rfl (fun j _ => ?_)
  rw [h2V_apply]

/-! ## The stored block at the three kinds of column -/

/-- In a column below 81 the stored block holds the inflow block's entry: the other two blocks are zero there. -/
theorem blk_left (n : FVec Ideal S512x81 .f32) (rwd ln : FVec Ideal S512x1 .f32) (r : Fin 512) (c : Fin 128) (hc : c.val < 81) :
    blk n rwd ln (ix2 r c) = n (ix2 r ⟨c.val, hc⟩) := by
  unfold blk
  rw [addf_apply, addf_apply]
  have e1 := Cert.Lib.LayoutAt.sideBySide_left (N := 512) (A := 81) (B := 47) (W := 128) n
    (broadcast S512x47 (Scalar.sitofp (F := Ideal) .f32 0#32)) concatenates_S512x81_S512x47_S512x128_d1 r c hc
  have e2 := Cert.Lib.LayoutAt.sideBySide_left (N := 512) (A := 82) (B := 46) (W := 128)
    (concatenate S512x82 1 [⟨S512x81, broadcast S512x81 (Scalar.sitofp (F := Ideal) .f32 0#32)⟩, ⟨S512x1, rwd⟩]
      concatenates_S512x81_S512x1_S512x82_d1)
    (broadcast S512x46 (Scalar.sitofp (F := Ideal) .f32 0#32)) concatenates_S512x82_S512x46_S512x128_d1 r c (by omega)
  have e3 := Cert.Lib.LayoutAt.sideBySide_left (N := 512) (A := 81) (B := 1) (W := 82)
    (broadcast S512x81 (Scalar.sitofp (F := Ideal) .f32 0#32)) rwd concatenates_S512x81_S512x1_S512x82_d1 r
    (⟨c.val, by omega⟩ : Fin 82) hc
  have e4 := Cert.Lib.LayoutAt.sideBySide_left (N := 512) (A := 83) (B := 45) (W := 128)
    (concatenate S512x83 1 [⟨S512x82, broadcast S512x82 (Scalar.sitofp (F := Ideal) .f32 0#32)⟩, ⟨S512x1, ln⟩]
      concatenates_S512x82_S512x1_S512x83_d1)
    (broadcast S512x45 (Scalar.sitofp (F := Ideal) .f32 0#32)) concatenates_S512x83_S512x45_S512x128_d1 r c (by omega)
  have e5 := Cert.Lib.LayoutAt.sideBySide_left (N := 512) (A := 82) (B := 1) (W := 83)
    (broadcast S512x82 (Scalar.sitofp (F := Ideal) .f32 0#32)) ln concatenates_S512x82_S512x1_S512x83_d1 r
    (⟨c.val, by omega⟩ : Fin 83) (by show c.val < 82; omega)
  refine (congrArg₂ (· + ·) (congrArg₂ (· + ·) e1 (e2.trans e3)) (e4.trans e5)).trans ?_
  rw [broadcast_apply, broadcast_apply, sitofp_zero, add_zero, add_zero]

/-- In column 81 the stored block holds the middle block's column: the other two blocks are zero there. -/
theorem blk_81 (n : FVec Ideal S512x81 .f32) (rwd ln : FVec Ideal S512x1 .f32) (r : Fin 512) :
    blk n rwd ln (ix2 r ⟨81, by decide⟩) = rwd (ix2 r (0 : Fin 1)) := by
  unfold blk
  rw [addf_apply, addf_apply]
  have e1 := Cert.Lib.LayoutAt.sideBySide_right (N := 512) (A := 81) (B := 47) (W := 128) n
    (broadcast S512x47 (Scalar.sitofp (F := Ideal) .f32 0#32)) concatenates_S512x81_S512x47_S512x128_d1 r
    (⟨81, by decide⟩ : Fin 128) (by decide) (by decide)
  have e2 := Cert.Lib.LayoutAt.sideBySide_left (N := 512) (A := 82) (B := 46) (W := 128)
    (concatenate S512x82 1 [⟨S512x81, broadcast S512x81 (Scalar.sitofp (F := Ideal) .f32 0#32)⟩, ⟨S512x1, rwd⟩]
      concatenates_S512x81_S512x1_S512x82_d1)
    (broadcast S512x46 (Scalar.sitofp (F := Ideal) .f32 0#32)) concatenates_S512x82_S512x46_S512x128_d1 r
    (⟨81, by decide⟩ : Fin 128) (by decide)
  have e3 := Cert.Lib.LayoutAt.sideBySide_right (N := 512) (A := 81) (B := 1) (W := 82)
    (broadcast S512x81 (Scalar.sitofp (F := Ideal) .f32 0#32)) rwd concatenates_S512x81_S512x1_S512x82_d1 r
    (⟨81, by decide⟩ : Fin 82) (by decide) (by decide)
  have e4 := Cert.Lib.LayoutAt.sideBySide_left (N := 512) (A := 83) (B := 45) (W := 128)
    (concatenate S512x83 1 [⟨S512x82, broadcast S512x82 (Scalar.sitofp (F := Ideal) .f32 0#32)⟩, ⟨S512x1, ln⟩]
      concatenates_S512x82_S512x1_S512x83_d1)
    (broadcast S512x45 (Scalar.sitofp (F := Ideal) .f32 0#32)) concatenates_S512x83_S512x45_S512x128_d1 r
    (⟨81, by decide⟩ : Fin 128) (by decide)
  have e5 := Cert.Lib.LayoutAt.sideBySide_left (N := 512) (A := 82) (B := 1) (W := 83)
    (broadcast S512x82 (Scalar.sitofp (F := Ideal) .f32 0#32)) ln concatenates_S512x82_S512x1_S512x83_d1 r
    (⟨81, by decide⟩ : Fin 83) (by decide)
  refine (congrArg₂ (· + ·) (congrArg₂ (· + ·) e1 (e2.trans e3)) (e4.trans e5)).trans ?_
  rw [broadcast_apply, broadcast_apply, sitofp_zero, zero_add, add_zero]
  exact congrArg (fun z : Fin 1 => rwd (ix2 r z)) (Subsingleton.elim _ _)

/-- In column 82 the stored block holds the last block's column: the other two blocks are zero there. -/
theorem blk_82 (n : FVec Ideal S512x81 .f32) (rwd ln : FVec Ideal S512x1 .f32) (r : Fin 512) :
    blk n rwd ln (ix2 r ⟨82, by decide⟩) = ln (ix2 r (0 : Fin 1)) := by
  unfold blk
  rw [addf_apply, addf_apply]
  have e1 := Cert.Lib.LayoutAt.sideBySide_right (N := 512) (A := 81) (B := 47) (W := 128) n
    (broadcast S512x47 (Scalar.sitofp (F := Ideal) .f32 0#32)) concatenates_S512x81_S512x47_S512x128_d1 r
    (⟨82, by decide⟩ : Fin 128) (by decide) (by decide)
  have e2 := Cert.Lib.LayoutAt.sideBySide_right (N := 512) (A := 82) (B := 46) (W := 128)
    (concatenate S512x82 1 [⟨S512x81, broadcast S512x81 (Scalar.sitofp (F := Ideal) .f32 0#32)⟩, ⟨S512x1, rwd⟩]
      concatenates_S512x81_S512x1_S512x82_d1)
    (broadcast S512x46 (Scalar.sitofp (F := Ideal) .f32 0#32)) concatenates_S512x82_S512x46_S512x128_d1 r
    (⟨82, by decide⟩ : Fin 128) (by decide) (by decide)
  have e4 := Cert.Lib.LayoutAt.sideBySide_left (N := 512) (A := 83) (B := 45) (W := 128)
    (concatenate S512x83 1 [⟨S512x82, broadcast S512x82 (Scalar.sitofp (F := Ideal) .f32 0#32)⟩, ⟨S512x1, ln⟩]
      concatenates_S512x82_S512x1_S512x83_d1)
    (broadcast S512x45 (Scalar.sitofp (F := Ideal) .f32 0#32)) concatenates_S512x83_S512x45_S512x128_d1 r
    (⟨82, by decide⟩ : Fin 128) (by decide)
  have e5 := Cert.Lib.LayoutAt.sideBySide_right (N := 512) (A := 82) (B := 1) (W := 83)
    (broadcast S512x82 (Scalar.sitofp (F := Ideal) .f32 0#32)) ln concatenates_S512x82_S512x1_S512x83_d1 r
    (⟨82, by decide⟩ : Fin 83) (by decide) (by decide)
  refine (congrArg₂ (· + ·) (congrArg₂ (· + ·) e1 e2) (e4.trans e5)).trans ?_
  rw [broadcast_apply, broadcast_apply, sitofp_zero, zero_add, zero_add]
  exact congrArg (fun z : Fin 1 => ln (ix2 r z)) (Subsingleton.elim _ _)

/-! ## The payload at the three kinds of column -/

/-- Column i < 81 of the stored block is the inflow of node i. -/
theorem pay_nsc (x0 : Vec Ideal S512x81 .f32) (x1 : Vec Ideal S512x6561 .f32) (x2 : Vec Ideal S6561x81 .f32)
    (x3 : Vec Ideal S81x32 .f32) (x4 : Vec Ideal S32x32 .f32) (x5 : Vec Ideal S32x1 .f32) (r : Fin 512) (i : Fin 81) :
    k0_pay1 (F := Ideal) x0 x1 x2 x3 x4 x5 (ix2 r ⟨i.val, by have := i.isLt; omega⟩) = nK x1 x2 r i := by
  rw [pay_eq_blk]
  exact (blk_left _ _ _ r _ i.isLt).trans (nV_apply x1 x2 r i)

/-- Column 81 of the stored block is the row's reward. -/
theorem pay_reward (x0 : Vec Ideal S512x81 .f32) (x1 : Vec Ideal S512x6561 .f32) (x2 : Vec Ideal S6561x81 .f32)
    (x3 : Vec Ideal S81x32 .f32) (x4 : Vec Ideal S32x32 .f32) (x5 : Vec Ideal S32x1 .f32) (r : Fin 512) :
    k0_pay1 (F := Ideal) x0 x1 x2 x3 x4 x5 (ix2 r ⟨81, by decide⟩)
      = Cert.Spec.rewardRow (nK x1 x2 r) (fun i => x0 (ix2 r i)) := by
  rw [pay_eq_blk]
  exact (blk_81 _ _ _ r).trans (rwV_apply x0 x1 x2 r 0)

/-- Column 82 of the stored block is the row's last layer. -/
theorem pay_lin (x0 : Vec Ideal S512x81 .f32) (x1 : Vec Ideal S512x6561 .f32) (x2 : Vec Ideal S6561x81 .f32)
    (x3 : Vec Ideal S81x32 .f32) (x4 : Vec Ideal S32x32 .f32) (x5 : Vec Ideal S32x1 .f32) (r : Fin 512) :
    k0_pay1 (F := Ideal) x0 x1 x2 x3 x4 x5 (ix2 r ⟨82, by decide⟩) = Cert.Spec.linRow (nK x1 x2 r) x3 x4 x5 := by
  rw [pay_eq_blk]
  exact (blk_82 _ _ _ r).trans (linV_apply x1 x2 x3 x4 x5 r 0)

end Cert.KerPayload

end
-- ==== Proof.KerWords.lean ====
/-
  Index words. An index word that the precondition puts in [0, 81) is, read signed or unsigned, the same small
  natural number; the flattened position  source · 81 + action  of two such words is computed without wrapping, is
  below 81 · 81, is not negative, and splits back into its two parts by division and remainder.
-/
import Mathlib.Tactic.SplitIfs

namespace Cert.KerWords

/-- A word in [0, 81) read signed is a natural number below 81, and is that number read signed. -/
theorem toNat_of_range (w : BitVec 32) (h0 : 0 ≤ w.toInt) (h1 : w.toInt < 81) :
    w.toNat < 81 ∧ w.toInt = (w.toNat : Int) := by
  have h32 : w.toNat < 2 ^ 32 := w.isLt
  have key := BitVec.toInt_eq_toNat_cond w
  by_cases hc : 2 * w.toNat < 2 ^ 32
  · rw [if_pos hc] at key; constructor <;> omega
  · rw [if_neg hc] at key; exfalso; omega

/-- A word below 2³¹ unsigned is that number signed, and is not below zero. -/
theorem toInt_of_small (w : BitVec 32) (h : w.toNat < 2 ^ 31) : w.toInt = (w.toNat : Int) := by
  have key := BitVec.toInt_eq_toNat_cond w
  rw [if_pos (by omega)] at key
  exact key

theorem slt_zero_of_small (w : BitVec 32) (h : w.toNat < 2 ^ 31) : BitVec.slt w 0#32 = false := by
  simp only [BitVec.slt, BitVec.toInt_zero]
  exact decide_eq_false (by rw [toInt_of_small w h]; omega)

/-- The flattened position of two words below 81, computed in 32 bits, does not wrap. -/
theorem flat_toNat (s a : BitVec 32) (hs : s.toNat < 81) (ha : a.toNat < 81) :
    (s * 81#32 + a).toNat = 81 * s.toNat + a.toNat := by
  rw [BitVec.toNat_add, BitVec.toNat_mul]
  have e : (81#32 : BitVec 32).toNat = 81 := by decide
  rw [e]
  omega

end Cert.KerWords
-- ==== Proof.LibScatterRows.lean ====
/-
  A general lemma about the host's accumulating scatter on the extended reals.

  A ROW scatter-add — `stablehlo.scatter` with an `add` body, `update_window_dims = [1]`, `inserted_window_dims = [0]`,
  `scatter_dims_to_operand_dims = [0]`, `index_vector_dim = 1`, on an operand of shape `[S, C]`, scatter indices `[R, 1]`
  and updates `[R, C]` — adds row `r` of the updates to row `idx r` of the operand (jax's `segment_sum`). On the extended
  reals the sum is exact and order-free, so the result at `(s, c)` is the operand there plus the sum of the updates'
  column `c` over the rows whose index word is `s`; and when those rows are enumerated without repetition by
  `e : Fin P → Fin R`, that sum is `∑ p, upd (e p, c)`.
-/
import Idealize.ShloMosaic.PureOps.Ideal
import Idealize.ShloMosaic.Lib.ValueIdx

noncomputable section

namespace Cert.LibScatterRows

open Idealize.ShloMosaic Idealize.ShloMosaic.ValueIdx

/-- A sum over the members of a set of rows cut out by a predicate, re-indexed by an enumeration of that set:
    `e` is injective, lands in the set, and reaches every member. -/
theorem sum_filter_eq_sum_enum {R P : ℕ} {M : Type} [AddCommMonoid M] (pred : Fin R → Prop) [DecidablePred pred]
    (e : Fin P → Fin R) (hinj : Function.Injective e) (hmem : ∀ p, pred (e p)) (hsurj : ∀ r, pred r → ∃ p, e p = r)
    (f : Fin R → M) : ∑ r ∈ Finset.univ.filter pred, f r = ∑ p : Fin P, f (e p) := by
  have hset : Finset.univ.filter pred = Finset.univ.image e := by
    ext r
    simp only [Finset.mem_filter, Finset.mem_univ, true_and, Finset.mem_image]
    constructor
    · intro h; exact hsurj r h
    · rintro ⟨p, rfl⟩; exact hmem p
  rw [hset, Finset.sum_image (fun a _ b _ h => hinj h)]

/-- On operand axis 0 the window starts at the index word of the update's row, read signed. -/
theorem rows_start_zero {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 0
      = (idx (ix2 r (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- On operand axis 1 the window starts at 0. -/
theorem rows_start_one {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 1 = 0 := by
  unfold ScatterDims.start
  rw [dif_neg (show ¬ (1 : Fin 2) ∈ [(0 : Fin 2)] by decide)]

/-- On operand axis 0, an inserted axis, the window coordinate is 0. -/
theorem rows_window_zero {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 0 = 0 := by
  unfold ScatterDims.window
  exact dif_neg (show ¬ (0 : Fin 2) ∈ (List.finRange 2).filter (· ∉ [(0 : Fin 2)]) by decide)

/-- On operand axis 1 the window coordinate is the update's column. -/
theorem rows_window_one {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 1 = c'.val := by
  unfold ScatterDims.window
  exact (dif_pos (show (1 : Fin 2) ∈ (List.finRange 2).filter (· ∉ [(0 : Fin 2)]) by decide)).trans rfl

/-- Where an update lands, on a rank-2 operand, from the window's start and coordinate on the two axes: if on axis 0
    the start is `t` and the window coordinate 0, and on axis 1 the start is 0 and the window coordinate `k`, the update
    goes to `(s, c)` exactly when `t = s` and `k = c` (otherwise it goes elsewhere or is dropped). -/
theorem resultIdx_eq_some_ix2_iff {S C w : ℕ} {si u : Shape} (d : ScatterDims ⟨2, ![S, C]⟩ si u) (j : u.Idx)
    (idx : IVec si w) (t : Int) (k : ℕ) (h00 : d.start j idx 0 = t) (h01 : d.start j idx 1 = 0)
    (hw0 : d.window j 0 = 0) (hw1 : d.window j 1 = k) (s : Fin S) (c : Fin C) :
    d.resultIdx? j idx = some (ix2 s c) ↔ t = (s.val : Int) ∧ k = c.val := by
  have hs := s.isLt
  have hc := c.isLt
  unfold ScatterDims.resultIdx?
  constructor
  · intro h
    split_ifs at h with hall
    have hfun := Option.some.inj h
    have e0 : (d.start j idx 0 + (d.window j 0 : ℕ)).toNat = s.val := congrArg (fun f => (f 0).val) hfun
    have e1 : (d.start j idx 1 + (d.window j 1 : ℕ)).toNat = c.val := congrArg (fun f => (f 1).val) hfun
    have b0 : 0 ≤ d.start j idx 0 + (d.window j 0 : ℕ) := (hall 0).1
    have b1 : 0 ≤ d.start j idx 1 + (d.window j 1 : ℕ) := (hall 1).1
    rw [h00, hw0] at e0 b0
    rw [h01, hw1] at e1 b1
    constructor <;> omega
  · rintro ⟨ht, hk⟩
    have hall : ∀ a, 0 ≤ d.start j idx a + d.window j a
        ∧ d.start j idx a + d.window j a < (⟨2, ![S, C]⟩ : Shape).size a := by
      intro a
      match a with
      | ⟨0, _⟩ =>
        show 0 ≤ d.start j idx 0 + (d.window j 0 : ℕ) ∧ d.start j idx 0 + (d.window j 0 : ℕ) < (S : Int)
        rw [h00, hw0]; omega
      | ⟨1, _⟩ =>
        show 0 ≤ d.start j idx 1 + (d.window j 1 : ℕ) ∧ d.start j idx 1 + (d.window j 1 : ℕ) < (C : Int)
        rw [h01, hw1]; omega
    rw [dif_pos hall]
    congr 1
    funext a
    refine Fin.ext ?_
    match a with
    | ⟨0, _⟩ =>
      show (d.start j idx 0 + (d.window j 0 : ℕ)).toNat = s.val
      rw [h00, hw0]; omega
    | ⟨1, _⟩ =>
      show (d.start j idx 1 + (d.window j 1 : ℕ)).toNat = c.val
      rw [h01, hw1]; omega

/-- Where an update of a row scatter lands: the update at row `r`, column `c'` goes to operand index `(s, c)` exactly
    when the row's index word, read signed, is `s` and the columns agree. -/
theorem rows_resultIdx_eq_some_iff {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) (s : Fin S) (c : Fin C) :
    (⟨[1], [0], [0], 1, wf⟩ : ScatterDims ⟨2, ![S, C]⟩ ⟨2, ![R, 1]⟩ ⟨2, ![R, C]⟩).resultIdx? (ix2 r c') idx
        = some (ix2 s c)
      ↔ (idx (ix2 r (0 : Fin 1))).toInt = (s.val : Int) ∧ c' = c := by
  rw [resultIdx_eq_some_ix2_iff _ _ idx _ _ (rows_start_zero wf idx r c') (rows_start_one wf idx r c')
    (rows_window_zero wf r c') (rows_window_one wf r c') s c, Fin.ext_iff]

/-- A row scatter-add read at `(s, c)`: the operand there plus the updates' column `c` summed over the rows whose index
    word, read signed, is `s`. -/
theorem hostScatterAdd_rows_apply {S C R w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (s : Fin S) (c : Fin C) :
    Ideal.hostScatterAdd (⟨[1], [0], [0], 1, wf⟩ : ScatterDims ⟨2, ![S, C]⟩ ⟨2, ![R, 1]⟩ ⟨2, ![R, C]⟩) x idx upd (ix2 s c)
      = x (ix2 s c)
        + ∑ r ∈ Finset.univ.filter (fun r : Fin R => (idx (ix2 r (0 : Fin 1))).toInt = (s.val : Int)), upd (ix2 r c) := by
  unfold Ideal.hostScatterAdd
  congr 1
  rw [Finset.sum_filter, sum_idx2, Finset.sum_filter]
  refine Finset.sum_congr rfl fun r _ => ?_
  by_cases hr : (idx (ix2 r (0 : Fin 1))).toInt = (s.val : Int)
  · rw [if_pos hr, Finset.sum_eq_single c]
    · exact if_pos ((rows_resultIdx_eq_some_iff wf idx r c s c).2 ⟨hr, rfl⟩)
    · intro c' _ hne
      exact if_neg fun h => hne ((rows_resultIdx_eq_some_iff wf idx r c' s c).1 h).2
    · intro hc
      exact absurd (Finset.mem_univ c) hc
  · rw [if_neg hr]
    exact Finset.sum_eq_zero fun c' _ => if_neg fun h => hr ((rows_resultIdx_eq_some_iff wf idx r c' s c).1 h).1

/-- The same with the rows of segment `s` enumerated: if row `r`'s index word is the natural number `seg r`, and `e`
    lists the rows with `seg r = s` once each, the result at `(s, c)` is the operand there plus `∑ p, upd (e p, c)`. -/
theorem hostScatterAdd_rows_enum {S C R P w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (seg : Fin R → ℕ) (hseg : ∀ r : Fin R, (idx (ix2 r (0 : Fin 1))).toInt = (seg r : Int))
    (s : Fin S) (c : Fin C) (e : Fin P → Fin R) (hinj : Function.Injective e) (hmem : ∀ p, seg (e p) = s.val)
    (hsurj : ∀ r, seg r = s.val → ∃ p, e p = r) :
    Ideal.hostScatterAdd (⟨[1], [0], [0], 1, wf⟩ : ScatterDims ⟨2, ![S, C]⟩ ⟨2, ![R, 1]⟩ ⟨2, ![R, C]⟩) x idx upd (ix2 s c)
      = x (ix2 s c) + ∑ p : Fin P, upd (ix2 (e p) c) := by
  rw [hostScatterAdd_rows_apply wf x idx upd s c]
  congr 1
  refine sum_filter_eq_sum_enum (fun r : Fin R => (idx (ix2 r (0 : Fin 1))).toInt = (s.val : Int)) e hinj ?_ ?_
    (fun r => upd (ix2 r c))
  · intro p
    show (idx (ix2 (e p) (0 : Fin 1))).toInt = (s.val : Int)
    rw [hseg, hmem]
  · intro r hr
    have hr' : (idx (ix2 r (0 : Fin 1))).toInt = (s.val : Int) := hr
    rw [hseg] at hr'
    exact hsurj r (Int.ofNat.inj hr')

end Cert.LibScatterRows

end
-- ==== Proof.LibScatterPoints.lean ====
/-
  A general lemma about the host's accumulating scatter on the extended reals.

  A POINT scatter-add — `stablehlo.scatter` with an `add` body, `update_window_dims = []`,
  `inserted_window_dims = [0, 1]`, `scatter_dims_to_operand_dims = [0, 1]`, `index_vector_dim = 1`, on an operand of
  shape `[S, C]`, scatter indices `[R, 2]` and updates `[R]` — adds the scalar update `r` at the operand position whose
  row is the first word and whose column is the second word of row `r` of the scatter indices, both words read signed
  and not clamped; an update whose position is outside the operand is dropped. On the extended reals the sum is exact
  and order-free, so the result at `(s, c)` is the operand there plus the sum of the updates over the pairs equal to
  `(s, c)`. Scattering ones into zeros gives the matrix that counts the pairs, and a product of a real row vector with
  that matrix is a sum over the pairs.
-/
import Idealize.ShloMosaic.PureOps.Ideal
import Idealize.ShloMosaic.Lib.ValueIdx
import Mathlib.Data.EReal.Basic
import Mathlib.Algebra.BigOperators.Group.Finset.Basic
import Mathlib.Algebra.BigOperators.Ring.Finset
import proofs.«429312_j33328946217236_2_alg».proof.Proof.LibScatterRows

noncomputable section

namespace Cert.LibScatterPoints

open Idealize.ShloMosaic Idealize.ShloMosaic.ValueIdx

/-- A rank-1 index set is its coordinate range. -/
def idxEquivOne {n : ℕ} : (⟨1, ![n]⟩ : Shape).Idx ≃ Fin n where
  toFun i := i 0
  invFun := ix1
  left_inv i := (eq_ix1 i).symm
  right_inv _ := rfl

/-- A sum over a rank-1 index set is the sum over its coordinate. -/
theorem sum_idxOne {M : Type*} [AddCommMonoid M] {n : ℕ} (f : (⟨1, ![n]⟩ : Shape).Idx → M) :
    ∑ i, f i = ∑ a : Fin n, f (ix1 a) := by
  rw [← Equiv.sum_comp (idxEquivOne (n := n)).symm f]
  rfl

/-- The coercion of the reals into the extended reals carries a finite sum to the finite sum. -/
theorem coe_finsetSum {ι : Type*} (s : Finset ι) (g : ι → ℝ) :
    ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-- On operand axis 0 the window starts at the first word of the update's pair, read signed. -/
theorem points_start_zero {S C R w : ℕ}
    (wf : ScatterDims.WF (⟨2, ![S, C]⟩ : Shape) ⟨2, ![R, 2]⟩ ⟨1, ![R]⟩ [] [0, 1] [0, 1] 1)
    (idx : IVec ⟨2, ![R, 2]⟩ w) (r : Fin R) :
    (⟨[], [0, 1], [0, 1], 1, wf⟩ : ScatterDims ⟨2, ![S, C]⟩ ⟨2, ![R, 2]⟩ ⟨1, ![R]⟩).start (ix1 r) idx 0
      = (idx (ix2 r (0 : Fin 2))).toInt := by
  unfold ScatterDims.start
  rw [dif_pos (show (0 : Fin 2) ∈ [(0 : Fin 2), 1] by decide)]
  congr 2
  funext b
  refine Fin.ext ?_
  match b with
  | ⟨0, _⟩ => rfl
  | ⟨1, _⟩ => rfl

/-- On operand axis 1 the window starts at the second word of the update's pair, read signed. -/
theorem points_start_one {S C R w : ℕ}
    (wf : ScatterDims.WF (⟨2, ![S, C]⟩ : Shape) ⟨2, ![R, 2]⟩ ⟨1, ![R]⟩ [] [0, 1] [0, 1] 1)
    (idx : IVec ⟨2, ![R, 2]⟩ w) (r : Fin R) :
    (⟨[], [0, 1], [0, 1], 1, wf⟩ : ScatterDims ⟨2, ![S, C]⟩ ⟨2, ![R, 2]⟩ ⟨1, ![R]⟩).start (ix1 r) idx 1
      = (idx (ix2 r (1 : Fin 2))).toInt := by
  unfold ScatterDims.start
  rw [dif_pos (show (1 : Fin 2) ∈ [(0 : Fin 2), 1] by decide)]
  congr 2
  funext b
  refine Fin.ext ?_
  match b with
  | ⟨0, _⟩ => rfl
  | ⟨1, _⟩ => rfl

/-- Both operand axes are inserted, so the window coordinate is 0 on each. -/
theorem points_window {S C R : ℕ}
    (wf : ScatterDims.WF (⟨2, ![S, C]⟩ : Shape) ⟨2, ![R, 2]⟩ ⟨1, ![R]⟩ [] [0, 1] [0, 1] 1)
    (r : Fin R) (a : Fin 2) :
    (⟨[], [0, 1], [0, 1], 1, wf⟩ : ScatterDims ⟨2, ![S, C]⟩ ⟨2, ![R, 2]⟩ ⟨1, ![R]⟩).window (ix1 r) a = 0 := by
  unfold ScatterDims.window
  exact dif_neg (show ¬ a ∈ (List.finRange 2).filter (· ∉ [(0 : Fin 2), 1]) by revert a; decide)

/-- Where an update lands, on a rank-2 operand, when the window has a start on both axes and coordinate 0 on both:
    if the starts are `t0` and `t1`, the update goes to `(s, c)` exactly when `t0 = s` and `t1 = c` (otherwise it
    goes elsewhere or is dropped). -/
theorem resultIdx_eq_some_ix2_iff_starts {S C w : ℕ} {si u : Shape} (d : ScatterDims ⟨2, ![S, C]⟩ si u) (j : u.Idx)
    (idx : IVec si w) (t0 t1 : Int) (h0 : d.start j idx 0 = t0) (h1 : d.start j idx 1 = t1)
    (hw0 : d.window j 0 = 0) (hw1 : d.window j 1 = 0) (s : Fin S) (c : Fin C) :
    d.resultIdx? j idx = some (ix2 s c) ↔ t0 = (s.val : Int) ∧ t1 = (c.val : Int) := by
  have hs := s.isLt
  have hc := c.isLt
  unfold ScatterDims.resultIdx?
  constructor
  · intro h
    split_ifs at h with hall
    have hfun := Option.some.inj h
    have e0 : (d.start j idx 0 + (d.window j 0 : ℕ)).toNat = s.val := congrArg (fun f => (f 0).val) hfun
    have e1 : (d.start j idx 1 + (d.window j 1 : ℕ)).toNat = c.val := congrArg (fun f => (f 1).val) hfun
    have b0 : 0 ≤ d.start j idx 0 + (d.window j 0 : ℕ) := (hall 0).1
    have b1 : 0 ≤ d.start j idx 1 + (d.window j 1 : ℕ) := (hall 1).1
    rw [h0, hw0] at e0 b0
    rw [h1, hw1] at e1 b1
    constructor <;> omega
  · rintro ⟨ht0, ht1⟩
    have hall : ∀ a, 0 ≤ d.start j idx a + d.window j a
        ∧ d.start j idx a + d.window j a < (⟨2, ![S, C]⟩ : Shape).size a := by
      intro a
      match a with
      | ⟨0, _⟩ =>
        show 0 ≤ d.start j idx 0 + (d.window j 0 : ℕ) ∧ d.start j idx 0 + (d.window j 0 : ℕ) < (S : Int)
        rw [h0, hw0]; omega
      | ⟨1, _⟩ =>
        show 0 ≤ d.start j idx 1 + (d.window j 1 : ℕ) ∧ d.start j idx 1 + (d.window j 1 : ℕ) < (C : Int)
        rw [h1, hw1]; omega
    rw [dif_pos hall]
    congr 1
    funext a
    refine Fin.ext ?_
    match a with
    | ⟨0, _⟩ =>
      show (d.start j idx 0 + (d.window j 0 : ℕ)).toNat = s.val
      rw [h0, hw0]; omega
    | ⟨1, _⟩ =>
      show (d.start j idx 1 + (d.window j 1 : ℕ)).toNat = c.val
      rw [h1, hw1]; omega

/-- Where an update of a point scatter lands: update `r` goes to operand index `(s, c)` exactly when the first word of
    its pair, read signed, is `s` and the second is `c`. -/
theorem points_resultIdx_eq_some_iff {S C R w : ℕ}
    (wf : ScatterDims.WF (⟨2, ![S, C]⟩ : Shape) ⟨2, ![R, 2]⟩ ⟨1, ![R]⟩ [] [0, 1] [0, 1] 1)
    (idx : IVec ⟨2, ![R, 2]⟩ w) (r : Fin R) (s : Fin S) (c : Fin C) :
    (⟨[], [0, 1], [0, 1], 1, wf⟩ : ScatterDims ⟨2, ![S, C]⟩ ⟨2, ![R, 2]⟩ ⟨1, ![R]⟩).resultIdx? (ix1 r) idx
        = some (ix2 s c)
      ↔ (idx (ix2 r (0 : Fin 2))).toInt = (s.val : Int) ∧ (idx (ix2 r (1 : Fin 2))).toInt = (c.val : Int) :=
  resultIdx_eq_some_ix2_iff_starts _ _ idx _ _ (points_start_zero wf idx r) (points_start_one wf idx r)
    (points_window wf r 0) (points_window wf r 1) s c

/-- A point scatter-add read at `(s, c)`: the operand there plus the updates summed over the pairs whose first word,
    read signed, is `s` and whose second word, read signed, is `c`. -/
theorem hostScatterAdd_points_apply {S C R : ℕ}
    (wf : ScatterDims.WF (⟨2, ![S, C]⟩ : Shape) ⟨2, ![R, 2]⟩ ⟨1, ![R]⟩ [] [0, 1] [0, 1] 1)
    (x : (⟨2, ![S, C]⟩ : Shape).Idx → EReal) (idx : IVec ⟨2, ![R, 2]⟩ 32) (upd : (⟨1, ![R]⟩ : Shape).Idx → EReal)
    (s : Fin S) (c : Fin C) :
    Ideal.hostScatterAdd (⟨[], [0, 1], [0, 1], 1, wf⟩ : ScatterDims ⟨2, ![S, C]⟩ ⟨2, ![R, 2]⟩ ⟨1, ![R]⟩) x idx upd (ix2 s c)
      = x (ix2 s c)
        + ∑ r ∈ Finset.univ.filter (fun r : Fin R => (idx (ix2 r (0 : Fin 2))).toInt = (s.val : Int)
            ∧ (idx (ix2 r (1 : Fin 2))).toInt = (c.val : Int)), upd (ix1 r) := by
  unfold Ideal.hostScatterAdd
  congr 1
  rw [Finset.sum_filter, sum_idxOne, Finset.sum_filter]
  refine Finset.sum_congr rfl fun r _ => ?_
  by_cases hr : (idx (ix2 r (0 : Fin 2))).toInt = (s.val : Int) ∧ (idx (ix2 r (1 : Fin 2))).toInt = (c.val : Int)
  · rw [if_pos hr, if_pos ((points_resultIdx_eq_some_iff wf idx r s c).2 hr)]
  · rw [if_neg hr, if_neg fun h => hr ((points_resultIdx_eq_some_iff wf idx r s c).1 h)]

/-- THE COUNT LAW. Scatter ones into a zero matrix at the pairs `(p r, q r)`: entry `(f, c)` counts the pairs equal to
    `(f, c)`. A real row vector `A` times column `c` of that matrix is the sum of `A (p r)` over the pairs whose second
    word is `c`: each pair contributes its own row's entry once. -/
theorem sum_mul_points {S C R : ℕ}
    (wf : ScatterDims.WF (⟨2, ![S, C]⟩ : Shape) ⟨2, ![R, 2]⟩ ⟨1, ![R]⟩ [] [0, 1] [0, 1] 1)
    (idx : IVec ⟨2, ![R, 2]⟩ 32) (p : Fin R → Fin S) (q : Fin R → Int)
    (hrow : ∀ r : Fin R, (idx (ix2 r (0 : Fin 2))).toInt = ((p r).val : Int))
    (hcol : ∀ r : Fin R, (idx (ix2 r (1 : Fin 2))).toInt = q r)
    (A : Fin S → EReal) (hA : ∀ f, ∃ a : ℝ, A f = (a : EReal)) (c : Fin C) :
    ∑ f : Fin S, A f * Ideal.hostScatterAdd (⟨[], [0, 1], [0, 1], 1, wf⟩ : ScatterDims ⟨2, ![S, C]⟩ ⟨2, ![R, 2]⟩ ⟨1, ![R]⟩)
        (fun _ => 0) idx (fun _ => 1) (ix2 f c)
      = ∑ r ∈ Finset.univ.filter (fun r : Fin R => q r = (c.val : Int)), A (p r) := by
  classical
  choose a ha using hA
  -- one entry of the product, as a real number: `a f` once for every pair equal to `(f, c)`
  have hentry : ∀ f : Fin S,
      A f * Ideal.hostScatterAdd (⟨[], [0, 1], [0, 1], 1, wf⟩ : ScatterDims ⟨2, ![S, C]⟩ ⟨2, ![R, 2]⟩ ⟨1, ![R]⟩)
          (fun _ => 0) idx (fun _ => 1) (ix2 f c)
        = ((∑ r ∈ Finset.univ.filter (fun r : Fin R => q r = (c.val : Int)), (if p r = f then a f else 0) : ℝ) : EReal) := by
    intro f
    rw [hostScatterAdd_points_apply wf (fun _ => 0) idx (fun _ => 1) f c, ha f, zero_add]
    have hset : Finset.univ.filter (fun r : Fin R => (idx (ix2 r (0 : Fin 2))).toInt = (f.val : Int)
          ∧ (idx (ix2 r (1 : Fin 2))).toInt = (c.val : Int))
        = (Finset.univ.filter (fun r : Fin R => q r = (c.val : Int))).filter (fun r => p r = f) := by
      ext r
      simp only [Finset.mem_filter, Finset.mem_univ, true_and, hrow, hcol, Fin.ext_iff]
      constructor
      · rintro ⟨h1, h2⟩; exact ⟨h2, by exact_mod_cast h1⟩
      · rintro ⟨h2, h1⟩; exact ⟨by exact_mod_cast h1, h2⟩
    rw [hset, Finset.sum_filter]
    have hones : ∑ r ∈ Finset.univ.filter (fun r : Fin R => q r = (c.val : Int)), (if p r = f then (1 : EReal) else 0)
        = ((∑ r ∈ Finset.univ.filter (fun r : Fin R => q r = (c.val : Int)), (if p r = f then (1 : ℝ) else 0) : ℝ) : EReal) := by
      rw [coe_finsetSum]
      refine Finset.sum_congr rfl fun r _ => ?_
      by_cases h : p r = f
      · rw [if_pos h, if_pos h, EReal.coe_one]
      · rw [if_neg h, if_neg h, EReal.coe_zero]
    rw [hones, ← EReal.coe_mul, Finset.mul_sum]
    congr 1
    refine Finset.sum_congr rfl fun r _ => ?_
    by_cases h : p r = f
    · rw [if_pos h, if_pos h, mul_one]
    · rw [if_neg h, if_neg h, mul_zero]
  rw [Finset.sum_congr rfl fun f _ => hentry f, ← coe_finsetSum, Finset.sum_comm]
  rw [coe_finsetSum]
  refine Finset.sum_congr rfl fun r _ => ?_
  rw [Finset.sum_ite_eq, if_pos (Finset.mem_univ _), ha]

end Cert.LibScatterPoints

end
-- ==== Proof.KerValue.lean ====
/-
  The kernel's output array in the specification's words.

  Row b of the output array was computed at point b / 512 from that point's blocks: the demand block is rows of the
  observations' second half, the action block is rows of the action counts with (source, action) flattened to
  81 · source + action, and the third block is the whole matrix that counts, for each flattened position f and node i,
  the edges with position f and segment i. A row of action counts times that matrix is, edge by edge, the sum over
  the edges of segment i of the action count at the edge's (source, action): the inflow of the specification. The
  reward column and the last-layer column are the specification's row functions of that inflow.
-/
import proofs.«429312_j33328946217236_2_alg».proof.Proof.KerArr
import proofs.«429312_j33328946217236_2_alg».proof.Proof.KerBlocks
import proofs.«429312_j33328946217236_2_alg».proof.Proof.KerPayload
import proofs.«429312_j33328946217236_2_alg».proof.Proof.KerWords
import proofs.«429312_j33328946217236_2_alg».proof.Proof.LibScatterPoints
import proofs.«429312_j33328946217236_2_alg».proof.Proof.LibClampIx
import proofs.«429312_j33328946217236_2_alg».proof.Proof.Spec

set_option maxRecDepth 16384

noncomputable section

namespace Cert.KerValue

open Cert.KernelIdeal Cert.KernelIdeal.Gen Cert.KerBlocks Cert.KerArr Cert.KerPayload Cert.KerWords Cert.Spec Cert.Hand
open Idealize.ShloMosaic Idealize.ShloMosaic.TcCoe Idealize.ShloMosaic.ValueIdx Idealize.SL.Sem

variable (m : (ℓ : Loc nD τ sig) → Buf (Elt Ideal) ℓ)

/-- The argument arrays, at their literal types. -/
abbrev obsA (c : Dev nD) : S16384x162.Idx → EReal := m ((c : Thread nD τ).loc main_arg0)
abbrev acA (c : Dev nD) : S16384x81x81.Idx → EReal := m ((c : Thread nD τ).loc main_arg1)
abbrev w1A (c : Dev nD) : S81x32.Idx → EReal := m ((c : Thread nD τ).loc main_arg2)
abbrev w2A (c : Dev nD) : S32x32.Idx → EReal := m ((c : Thread nD τ).loc main_arg3)
abbrev w3A (c : Dev nD) : S32x1.Idx → EReal := m ((c : Thread nD τ).loc main_arg4)
abbrev srcW (c : Dev nD) : S369.Idx → BitVec 32 := m ((c : Thread nD τ).loc main_arg6)
abbrev actW (c : Dev nD) : S369.Idx → BitVec 32 := m ((c : Thread nD τ).loc main_arg7)
abbrev segW (c : Dev nD) : S369.Idx → BitVec 32 := m ((c : Thread nD τ).loc main_arg8)

/-- The inflow the specification assigns to batch row b. -/
abbrev inflow (c : Dev nD) (b : Fin 16384) : Fin 81 → EReal := fun i => nsc (acA m c) (srcW m c) (actW m c) (segW m c) b i

/-- THE INFLOW: a block row of action counts times the edge-count matrix is the specification's inflow of that batch
    row, when the action counts are real numbers and the index words lie on their axes. -/
theorem nK_eq (c : Dev nD) (t : Fin cfg0.N) (r : Fin 512) (i : Fin 81) (hb : 512 * t.val + r.val < 16384)
    (hfin : Finite (acA m c)) (hs : InRange (srcW m c)) (ha : InRange (actW m c)) (hg : InRange (segW m c)) :
    nK (ablk m c t) (mblk m c t) r i = inflow m c ⟨512 * t.val + r.val, hb⟩ i := by
  have hsN := fun e : Fin 369 => toNat_of_range (srcW m c (ix1 e)) (hs e).1 (hs e).2
  have haN := fun e : Fin 369 => toNat_of_range (actW m c (ix1 e)) (ha e).1 (ha e).2
  have hgN := fun e : Fin 369 => toNat_of_range (segW m c (ix1 e)) (hg e).1 (hg e).2
  -- the flattened position of edge e
  let p : Fin 369 → Fin 6561 := fun e =>
    ⟨81 * (srcW m c (ix1 e)).toNat + (actW m c (ix1 e)).toNat, by have h1 := (hsN e).1; have h2 := (haN e).1; omega⟩
  have hrow : ∀ e : Fin 369, (kidx m c (ix2 e (0 : Fin 2))).toInt = ((p e).val : Int) := by
    intro e
    have hw := flat_toNat (srcW m c (ix1 e)) (actW m c (ix1 e)) (hsN e).1 (haN e).1
    have hsm : (srcW m c (ix1 e) * 81#32 + actW m c (ix1 e)).toNat < 2 ^ 31 := by
      rw [hw]; have h1 := (hsN e).1; have h2 := (haN e).1; omega
    rw [kidx_row]
    simp only [slt_zero_of_small _ hsm, Bool.false_eq_true, if_false]
    rw [toInt_of_small _ hsm, hw]
  have hcol : ∀ e : Fin 369, (kidx m c (ix2 e (1 : Fin 2))).toInt = (segW m c (ix1 e)).toInt := by
    intro e
    have hsm : (segW m c (ix1 e)).toNat < 2 ^ 31 := by have h1 := (hgN e).1; omega
    rw [kidx_col]
    simp only [slt_zero_of_small _ hsm, Bool.false_eq_true, if_false]
  have hA : ∀ f : Fin 6561, ∃ a : ℝ, acA m c (ix3 (⟨512 * t.val + r.val, hb⟩ : Fin 16384)
      (⟨f.val / 81, by have := f.isLt; omega⟩ : Fin 81) (⟨f.val % 81, Nat.mod_lt _ (by decide)⟩ : Fin 81)) = (a : EReal) :=
    fun f => hfin _
  have key := Cert.LibScatterPoints.sum_mul_points scatter_S6561x81_S369x2_S369_n_01_01_1_wf (kidx m c) p
    (fun e => (segW m c (ix1 e)).toInt) hrow hcol
    (fun f : Fin 6561 => acA m c (ix3 (⟨512 * t.val + r.val, hb⟩ : Fin 16384)
      (⟨f.val / 81, by have := f.isLt; omega⟩ : Fin 81) (⟨f.val % 81, Nat.mod_lt _ (by decide)⟩ : Fin 81))) hA i
  have hL : nK (ablk m c t) (mblk m c t) r i
      = ∑ f : Fin 6561, acA m c (ix3 (⟨512 * t.val + r.val, hb⟩ : Fin 16384)
          (⟨f.val / 81, by have := f.isLt; omega⟩ : Fin 81) (⟨f.val % 81, Nat.mod_lt _ (by decide)⟩ : Fin 81))
        * Ideal.hostScatterAdd (⟨[], [0, 1], [0, 1], 1, scatter_S6561x81_S369x2_S369_n_01_01_1_wf⟩ :
            ScatterDims ⟨2, ![6561, 81]⟩ ⟨2, ![369, 2]⟩ ⟨1, ![369]⟩) (fun _ => 0) (kidx m c) (fun _ => 1) (ix2 f i) := by
    unfold nK
    refine Finset.sum_congr rfl fun f _ => ?_
    rw [ablk_apply m c t r f hb, mblk_eq m c t]
    rfl
  rw [hL, key]
  show _ = nsc (acA m c) (srcW m c) (actW m c) (segW m c) ⟨512 * t.val + r.val, hb⟩ i
  unfold nsc
  refine Finset.sum_congr rfl fun e _ => ?_
  have e1 : (⟨(p e).val / 81, by have := (p e).isLt; omega⟩ : Fin 81) = clampIx 81 (by decide) (srcW m c (ix1 e)) :=
    Fin.ext (by
      show (81 * (srcW m c (ix1 e)).toNat + (actW m c (ix1 e)).toNat) / 81 = (clampIx 81 (by decide) (srcW m c (ix1 e))).val
      rw [clampIx_val_of_mem 81 (by decide) _ (hs e).1 (hs e).2, (hsN e).2, Int.toNat_natCast]
      have h2 := (haN e).1; omega)
  have e2 : (⟨(p e).val % 81, Nat.mod_lt _ (by decide)⟩ : Fin 81) = clampIx 81 (by decide) (actW m c (ix1 e)) :=
    Fin.ext (by
      show (81 * (srcW m c (ix1 e)).toNat + (actW m c (ix1 e)).toNat) % 81 = (clampIx 81 (by decide) (actW m c (ix1 e))).val
      rw [clampIx_val_of_mem 81 (by decide) _ (ha e).1 (ha e).2, (haN e).2, Int.toNat_natCast]
      have h2 := (haN e).1; omega)
  show acA m c (ix3 _ (⟨(p e).val / 81, _⟩ : Fin 81) (⟨(p e).val % 81, _⟩ : Fin 81)) = _
  rw [e1, e2]

/-- A batch row is row b % 512 of point b / 512. -/
theorem row_split (b : Fin 16384) : 512 * (b.val / 512) + b.val % 512 = b.val := by omega

section
variable (c : Dev nD) (hfin : Finite (acA m c)) (hs : InRange (srcW m c)) (ha : InRange (actW m c)) (hg : InRange (segW m c))
include hfin hs ha hg

/-- The inflow columns of the output array. -/
theorem G6_nsc (b : Fin 16384) (i : Fin 81) :
    G6 m c (ix2 b (⟨i.val, by have := i.isLt; omega⟩ : Fin 128)) = inflow m c b i := by
  have hN : b.val / 512 < cfg0.N := by rw [N_eq]; have := b.isLt; omega
  have hb : 512 * (b.val / 512) + b.val % 512 < 16384 := by have := b.isLt; omega
  rw [G6_at m c ⟨b.val / 512, hN⟩ _ ⟨b.val % 512, Nat.mod_lt _ (by decide)⟩ ⟨i.val, by have := i.isLt; omega⟩
    (by show b.val = b.val / 512 * 512 + b.val % 512; omega) rfl]
  rw [pay_nsc]
  show nK (ablk m c _) (mblk m c _) _ i = _
  rw [nK_eq m c ⟨b.val / 512, hN⟩ ⟨b.val % 512, Nat.mod_lt _ (by decide)⟩ i hb hfin hs ha hg]
  congr 1
  exact Fin.ext (row_split b)

/-- A block row's inflow, as a function of the node, is the batch row's. -/
theorem nK_row (b : Fin 16384) (hN : b.val / 512 < cfg0.N) :
    nK (ablk m c ⟨b.val / 512, hN⟩) (mblk m c ⟨b.val / 512, hN⟩) ⟨b.val % 512, Nat.mod_lt _ (by decide)⟩ = inflow m c b := by
  funext i
  have hb : 512 * (b.val / 512) + b.val % 512 < 16384 := by have := b.isLt; omega
  rw [nK_eq m c ⟨b.val / 512, hN⟩ ⟨b.val % 512, Nat.mod_lt _ (by decide)⟩ i hb hfin hs ha hg]
  congr 1
  exact Fin.ext (row_split b)

/-- The reward column of the output array. -/
theorem G6_reward (b : Fin 16384) :
    G6 m c (ix2 b (⟨81, by decide⟩ : Fin 128)) = rewardRow (inflow m c b) (dem (obsA m c) b) := by
  have hN : b.val / 512 < cfg0.N := by rw [N_eq]; have := b.isLt; omega
  have hb : 512 * (b.val / 512) + b.val % 512 < 16384 := by have := b.isLt; omega
  rw [G6_at m c ⟨b.val / 512, hN⟩ _ ⟨b.val % 512, Nat.mod_lt _ (by decide)⟩ ⟨81, by decide⟩
    (by show b.val = b.val / 512 * 512 + b.val % 512; omega) rfl]
  rw [pay_reward]
  show rewardRow (nK (ablk m c _) (mblk m c _) _) (fun i => dblk m c _ (ix2 _ i)) = _
  rw [nK_row m c hfin hs ha hg b hN]
  congr 1
  funext i
  rw [dblk_apply m c ⟨b.val / 512, hN⟩ ⟨b.val % 512, Nat.mod_lt _ (by decide)⟩ i hb]
  show obsA m c _ = obsA m c _
  congr 1
  exact congrArg (fun x => ix2 x _) (Fin.ext (row_split b))

/-- The last-layer column of the output array. -/
theorem G6_lin (b : Fin 16384) :
    G6 m c (ix2 b (⟨82, by decide⟩ : Fin 128)) = linRow (inflow m c b) (w1A m c) (w2A m c) (w3A m c) := by
  have hN : b.val / 512 < cfg0.N := by rw [N_eq]; have := b.isLt; omega
  rw [G6_at m c ⟨b.val / 512, hN⟩ _ ⟨b.val % 512, Nat.mod_lt _ (by decide)⟩ ⟨82, by decide⟩
    (by show b.val = b.val / 512 * 512 + b.val % 512; omega) rfl]
  rw [pay_lin]
  show linRow (nK (ablk m c _) (mblk m c _) _) (w1blk m c _) (w2blk m c _) (w3blk m c _) = _
  rw [nK_row m c hfin hs ha hg b hN, w1blk_eq, w2blk_eq, w3blk_eq]

end

/-! ## The run -/

/-- Every weakly fair execution of the kernel program ends with its four results at the specification's row functions
    of the arguments' launch contents, and the arguments unchanged, provided the action counts are real numbers and the
    three index vectors' words lie on their axes. -/
theorem run_spec (ρ : Dev nD → PrngReg) (hfin : ∀ c : Dev nD, Finite (acA m c)) (hs : ∀ c : Dev nD, InRange (srcW m c))
    (ha : ∀ c : Dev nD, InRange (actW m c)) (hg : ∀ c : Dev nD, InRange (segW m c)) :
    θ_run defs (onTc (τ := τ) (main (F := Ideal))) ⟨m, fun _ => 0, ρ⟩ (fun r => ∀ c : Dev nD,
      r.2.mem ((c.tc : Thread nD τ).loc main_v30) = (fun j : S16384.Idx =>
          rewardRow (inflow m c (j 0)) (dem (obsA m c) (j 0))
            + (linRow (inflow m c (j 0)) (w1A m c) (w2A m c) (w3A m c) + m ((c : Thread nD τ).loc main_arg5) (ix1 (0 : Fin 1))))
      ∧ r.2.mem ((c.tc : Thread nD τ).loc main_v24) = (fun j : S16384.Idx =>
          rewardRow (inflow m c (j 0)) (dem (obsA m c) (j 0)))
      ∧ r.2.mem ((c.tc : Thread nD τ).loc main_v29) = (fun j : S16384.Idx =>
          linRow (inflow m c (j 0)) (w1A m c) (w2A m c) (w3A m c) + m ((c : Thread nD τ).loc main_arg5) (ix1 (0 : Fin 1)))
      ∧ r.2.mem ((c.tc : Thread nD τ).loc main_v22) = (fun j : S16384x81.Idx => inflow m c (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun _ h c => ?_) (Cert.KerArr.run m ρ)
  obtain ⟨h30, h24, h29, h22, hargs⟩ := h c
  refine ⟨h30.trans (funext fun j => ?_), h24.trans (funext fun j => ?_), h29.trans (funext fun j => ?_),
    h22.trans (funext fun j => ?_), hargs⟩
  · show G6 m c (ix2 (j 0) _) + (G6 m c (ix2 (j 0) _) + _) = _
    rw [G6_reward m c (hfin c) (hs c) (ha c) (hg c) (j 0), G6_lin m c (hfin c) (hs c) (ha c) (hg c) (j 0)]
  · exact G6_reward m c (hfin c) (hs c) (ha c) (hg c) (j 0)
  · show G6 m c (ix2 (j 0) _) + _ = _
    rw [G6_lin m c (hfin c) (hs c) (ha c) (hg c) (j 0)]
  · exact G6_nsc m c (hfin c) (hs c) (ha c) (hg c) (j 0) (j 1)

end Cert.KerValue

end
-- ==== Proof.LibGatherAt.lean ====
import proofs.«429312_j33328946217236_2_alg».proof.Proof.LibClampIx
import Idealize.ShloMosaic.Lib.ValueIdx

/-! # `stablehlo.gather` read at an index, for four arrangements of axes

`Host.gather d x idx j = x (d.operandIdx j idx)`: on each operand axis the operand index is the clamped start
(the start index's component for that axis, read signed, when the start-index map names the axis) plus the
batching coordinate plus the offset coordinate (the result's own coordinate on an offset axis). Here are the
four arrangements in which every axis is either an offset axis read whole or a collapsed axis named by the
start-index map, there is no batching axis, and the start indices are `[N, 1]` or `[N, 2]` with the index
vector on the last axis. Each lemma is stated over variable extents, for dimension numbers given as a record of
those extents, and says which operand element result element `(l, n)` or `(n, l)` is, with the clamped
positions written as `clampIx`. -/

namespace Cert.Hand

open Idealize.ShloMosaic Idealize.ShloMosaic.ValueIdx

section LUV
variable {α : Type} {L U V N : Nat}

/-- Dimension numbers of a gather that reads, for each of `N` index pairs `(u, v)`, the whole first axis of an
    operand `[L, U, V]` at `(·, u, v)`: the result is `[L, N]`. -/
abbrev dimsLUV (L U V N : Nat)
    (wf : GatherDims.WF ⟨3, ![L, U, V]⟩ ⟨2, ![N, 2]⟩ ⟨2, ![L, N]⟩ [0] [1, 2] [] [1, 2] [] 1 ![L, 1, 1]) :
    GatherDims ⟨3, ![L, U, V]⟩ ⟨2, ![N, 2]⟩ ⟨2, ![L, N]⟩ where
  offsetDims := [0]
  collapsedSliceDims := [1, 2]
  operandBatchingDims := []
  startIndicesBatchingDims := []
  startIndexMap := [1, 2]
  indexVectorDim := 1
  sliceSizes := ![L, 1, 1]
  wf := wf

/-- Result element `(l, n)` is the operand at `(l, u, v)`, where `u` and `v` are the two words of index pair
    `n`, each read signed and clamped into its axis. -/
theorem gather_LUV_apply (hU : 0 < U) (hV : 0 < V)
    (wf : GatherDims.WF ⟨3, ![L, U, V]⟩ ⟨2, ![N, 2]⟩ ⟨2, ![L, N]⟩ [0] [1, 2] [] [1, 2] [] 1 ![L, 1, 1])
    (x : (⟨3, ![L, U, V]⟩ : Shape).Idx → α) (idx : IVec ⟨2, ![N, 2]⟩ 32) (l : Fin L) (n : Fin N) :
    Host.gather (dimsLUV L U V N wf) x idx (ix2 l n)
      = x (ix3 l (clampIx U hU (idx (ix2 n 0))) (clampIx V hV (idx (ix2 n 1)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 3) ∉ (dimsLUV L U V N wf).startIndexMap from
      (by decide : (0 : Fin 3) ∉ ([1, 2] : List (Fin 3))))]
    unfold GatherDims.offCoord
    rw [dif_pos (show (⟨0, h0⟩ : Fin 3) ∈ (dimsLUV L U V N wf).sKept from
      (by decide : (0 : Fin 3) ∈ ([0] : List (Fin 3))))]
    rw [Nat.add_zero, Nat.zero_add]
    rfl
  | ⟨1, h1⟩ =>
    -- the second axis is collapsed and is the start index's first component
    show GatherDims.start _ _ _ _ + GatherDims.batchCoord _ _ _ + GatherDims.offCoord _ _ _ = _
    have hm : (⟨1, h1⟩ : Fin 3) ∈ (dimsLUV L U V N wf).startIndexMap :=
      (by decide : (1 : Fin 3) ∈ ([1, 2] : List (Fin 3)))
    rw [GatherDims.batchCoord_eq_zero _ _ _ List.not_mem_nil,
      GatherDims.offCoord_eq_zero _ _ _ (show (⟨1, h1⟩ : Fin 3) ∉ (dimsLUV L U V N wf).sKept from
        (by decide : (1 : Fin 3) ∉ ([0] : List (Fin 3))))]
    unfold GatherDims.start
    rw [dif_pos hm]
    have hsi : (dimsLUV L U V N wf).siIdx (ix2 l n)
        ⟨List.idxOf (⟨1, h1⟩ : Fin 3) (dimsLUV L U V N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨2, h2⟩ =>
    -- the third axis is collapsed and is the start index's second component
    show GatherDims.start _ _ _ _ + GatherDims.batchCoord _ _ _ + GatherDims.offCoord _ _ _ = _
    have hm : (⟨2, h2⟩ : Fin 3) ∈ (dimsLUV L U V N wf).startIndexMap :=
      (by decide : (2 : Fin 3) ∈ ([1, 2] : List (Fin 3)))
    rw [GatherDims.batchCoord_eq_zero _ _ _ List.not_mem_nil,
      GatherDims.offCoord_eq_zero _ _ _ (show (⟨2, h2⟩ : Fin 3) ∉ (dimsLUV L U V N wf).sKept from
        (by decide : (2 : Fin 3) ∉ ([0] : List (Fin 3))))]
    unfold GatherDims.start
    rw [dif_pos hm]
    have hsi : (dimsLUV L U V N wf).siIdx (ix2 l n)
        ⟨List.idxOf (⟨2, h2⟩ : Fin 3) (dimsLUV L U V N wf).startIndexMap, List.idxOf_lt_length_iff.2 hm⟩
          = ix2 n 1 := by
      funext b; refine Fin.ext ?_
      match b with
      | ⟨0, _⟩ => rfl
      | ⟨1, _⟩ => rfl
    rw [hsi]
    rfl

end LUV

section LU
variable {α : Type} {L U N : Nat}

/-- Dimension numbers of a gather that reads, for each of `N` indices `u`, the whole first axis of an operand
    `[L, U]` at `(·, u)`: the result is `[L, N]`. -/
abbrev dimsLU (L U N : Nat)
    (wf : GatherDims.WF ⟨2, ![L, U]⟩ ⟨2, ![N, 1]⟩ ⟨2, ![L, N]⟩ [0] [1] [] [1] [] 1 ![L, 1]) :
    GatherDims ⟨2, ![L, U]⟩ ⟨2, ![N, 1]⟩ ⟨2, ![L, N]⟩ where
  offsetDims := [0]
  collapsedSliceDims := [1]
  operandBatchingDims := []
  startIndicesBatchingDims := []
  startIndexMap := [1]
  indexVectorDim := 1
  sliceSizes := ![L, 1]
  wf := wf

/-- Result element `(l, n)` is the operand at `(l, u)`, where `u` is index word `n` read signed and clamped
    into the second axis. -/
theorem gather_LU_apply (hU : 0 < U)
    (wf : GatherDims.WF ⟨2, ![L, U]⟩ ⟨2, ![N, 1]⟩ ⟨2, ![L, N]⟩ [0] [1] [] [1] [] 1 ![L, 1])
    (x : (⟨2, ![L, U]⟩ : Shape).Idx → α) (idx : IVec ⟨2, ![N, 1]⟩ 32) (l : Fin L) (n : Fin N) :
    Host.gather (dimsLU L U N wf) x idx (ix2 l n) = x (ix2 l (clampIx U hU (idx (ix2 n 0)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 2) ∉ (dimsLU L U N wf).startIndexMap from
      (by decide : (0 : Fin 2) ∉ ([1] : List (Fin 2))))]
    unfold GatherDims.offCoord
    rw [dif_pos (show (⟨0, h0⟩ : Fin 2) ∈ (dimsLU L U N wf).sKept from
      (by decide : (0 : Fin 2) ∈ ([0] : List (Fin 2))))]
    rw [Nat.add_zero, Nat.zero_add]
    rfl
  | ⟨1, h1⟩ =>
    -- the second axis is collapsed and is the start index's one component
    show GatherDims.start _ _ _ _ + GatherDims.batchCoord _ _ _ + GatherDims.offCoord _ _ _ = _
    have hm : (⟨1, h1⟩ : Fin 2) ∈ (dimsLU L U N wf).startIndexMap :=
      (by decide : (1 : Fin 2) ∈ ([1] : List (Fin 2)))
    rw [GatherDims.batchCoord_eq_zero _ _ _ List.not_mem_nil,
      GatherDims.offCoord_eq_zero _ _ _ (show (⟨1, h1⟩ : Fin 2) ∉ (dimsLU L U N wf).sKept from
        (by decide : (1 : Fin 2) ∉ ([0] : List (Fin 2))))]
    unfold GatherDims.start
    rw [dif_pos hm]
    have hsi : (dimsLU L U N wf).siIdx (ix2 l n)
        ⟨List.idxOf (⟨1, h1⟩ : Fin 2) (dimsLU L U N wf).startIndexMap, List.idxOf_lt_length_iff.2 hm⟩
          = ix2 n 0 := by
      funext b; refine Fin.ext ?_
      match b with
      | ⟨0, _⟩ => rfl
      | ⟨1, _⟩ => rfl
    rw [hsi]
    rfl

end LU

section UL
variable {α : Type} {U L N : Nat}

/-- Dimension numbers of a gather that reads, for each of `N` indices `u`, row `u` of an operand `[U, L]`:
    the result is `[N, L]`. -/
abbrev dimsUL (U L N : Nat)
    (wf : GatherDims.WF ⟨2, ![U, L]⟩ ⟨2, ![N, 1]⟩ ⟨2, ![N, L]⟩ [1] [0] [] [0] [] 1 ![1, L]) :
    GatherDims ⟨2, ![U, L]⟩ ⟨2, ![N, 1]⟩ ⟨2, ![N, L]⟩ where
  offsetDims := [1]
  collapsedSliceDims := [0]
  operandBatchingDims := []
  startIndicesBatchingDims := []
  startIndexMap := [0]
  indexVectorDim := 1
  sliceSizes := ![1, L]
  wf := wf

/-- Result element `(n, l)` is the operand at `(u, l)`, where `u` is index word `n` read signed and clamped
    into the first axis. -/
theorem gather_UL_apply (hU : 0 < U)
    (wf : GatherDims.WF ⟨2, ![U, L]⟩ ⟨2, ![N, 1]⟩ ⟨2, ![N, L]⟩ [1] [0] [] [0] [] 1 ![1, L])
    (x : (⟨2, ![U, L]⟩ : Shape).Idx → α) (idx : IVec ⟨2, ![N, 1]⟩ 32) (n : Fin N) (l : Fin L) :
    Host.gather (dimsUL U L N wf) x idx (ix2 n l) = x (ix2 (clampIx U hU (idx (ix2 n 0))) l) := by
  unfold Host.gather
  congr 1
  funext a
  refine Fin.ext ?_
  match a with
  | ⟨0, h0⟩ =>
    -- the first axis is collapsed and is the start index's one component
    show GatherDims.start _ _ _ _ + GatherDims.batchCoord _ _ _ + GatherDims.offCoord _ _ _ = _
    have hm : (⟨0, h0⟩ : Fin 2) ∈ (dimsUL U L N wf).startIndexMap :=
      (by decide : (0 : Fin 2) ∈ ([0] : List (Fin 2)))
    rw [GatherDims.batchCoord_eq_zero _ _ _ List.not_mem_nil,
      GatherDims.offCoord_eq_zero _ _ _ (show (⟨0, h0⟩ : Fin 2) ∉ (dimsUL U L N wf).sKept from
        (by decide : (0 : Fin 2) ∉ ([1] : List (Fin 2))))]
    unfold GatherDims.start
    rw [dif_pos hm]
    have hsi : (dimsUL U L N wf).siIdx (ix2 n l)
        ⟨List.idxOf (⟨0, h0⟩ : Fin 2) (dimsUL U L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨1, h1⟩ : Fin 2) ∉ (dimsUL U L N wf).startIndexMap from
      (by decide : (1 : Fin 2) ∉ ([0] : List (Fin 2))))]
    unfold GatherDims.offCoord
    rw [dif_pos (show (⟨1, h1⟩ : Fin 2) ∈ (dimsUL U L N wf).sKept from
      (by decide : (1 : Fin 2) ∈ ([1] : List (Fin 2))))]
    rw [Nat.add_zero, Nat.zero_add]
    rfl

end UL

section UVL
variable {α : Type} {U V L N : Nat}

/-- Dimension numbers of a gather that reads, for each of `N` index pairs `(u, v)`, the whole last axis of an
    operand `[U, V, L]` at `(u, v, ·)`: the result is `[N, L]`. -/
abbrev dimsUVL (U V L N : Nat)
    (wf : GatherDims.WF ⟨3, ![U, V, L]⟩ ⟨2, ![N, 2]⟩ ⟨2, ![N, L]⟩ [1] [0, 1] [] [0, 1] [] 1 ![1, 1, L]) :
    GatherDims ⟨3, ![U, V, L]⟩ ⟨2, ![N, 2]⟩ ⟨2, ![N, L]⟩ where
  offsetDims := [1]
  collapsedSliceDims := [0, 1]
  operandBatchingDims := []
  startIndicesBatchingDims := []
  startIndexMap := [0, 1]
  indexVectorDim := 1
  sliceSizes := ![1, 1, L]
  wf := wf

/-- Result element `(n, l)` is the operand at `(u, v, l)`, where `u` and `v` are the two words of index pair
    `n`, each read signed and clamped into its axis. -/
theorem gather_UVL_apply (hU : 0 < U) (hV : 0 < V)
    (wf : GatherDims.WF ⟨3, ![U, V, L]⟩ ⟨2, ![N, 2]⟩ ⟨2, ![N, L]⟩ [1] [0, 1] [] [0, 1] [] 1 ![1, 1, L])
    (x : (⟨3, ![U, V, L]⟩ : Shape).Idx → α) (idx : IVec ⟨2, ![N, 2]⟩ 32) (n : Fin N) (l : Fin L) :
    Host.gather (dimsUVL U V L N wf) x idx (ix2 n l)
      = x (ix3 (clampIx U hU (idx (ix2 n 0))) (clampIx V hV (idx (ix2 n 1))) l) := by
  unfold Host.gather
  congr 1
  funext a
  refine Fin.ext ?_
  match a with
  | ⟨0, h0⟩ =>
    -- the first axis is collapsed and is the start index's first component
    show GatherDims.start _ _ _ _ + GatherDims.batchCoord _ _ _ + GatherDims.offCoord _ _ _ = _
    have hm : (⟨0, h0⟩ : Fin 3) ∈ (dimsUVL U V L N wf).startIndexMap :=
      (by decide : (0 : Fin 3) ∈ ([0, 1] : List (Fin 3)))
    rw [GatherDims.batchCoord_eq_zero _ _ _ List.not_mem_nil,
      GatherDims.offCoord_eq_zero _ _ _ (show (⟨0, h0⟩ : Fin 3) ∉ (dimsUVL U V L N wf).sKept from
        (by decide : (0 : Fin 3) ∉ ([2] : List (Fin 3))))]
    unfold GatherDims.start
    rw [dif_pos hm]
    have hsi : (dimsUVL U V L N wf).siIdx (ix2 n l)
        ⟨List.idxOf (⟨0, h0⟩ : Fin 3) (dimsUVL U V L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is collapsed and is the start index's second component
    show GatherDims.start _ _ _ _ + GatherDims.batchCoord _ _ _ + GatherDims.offCoord _ _ _ = _
    have hm : (⟨1, h1⟩ : Fin 3) ∈ (dimsUVL U V L N wf).startIndexMap :=
      (by decide : (1 : Fin 3) ∈ ([0, 1] : List (Fin 3)))
    rw [GatherDims.batchCoord_eq_zero _ _ _ List.not_mem_nil,
      GatherDims.offCoord_eq_zero _ _ _ (show (⟨1, h1⟩ : Fin 3) ∉ (dimsUVL U V L N wf).sKept from
        (by decide : (1 : Fin 3) ∉ ([2] : List (Fin 3))))]
    unfold GatherDims.start
    rw [dif_pos hm]
    have hsi : (dimsUVL U V L N wf).siIdx (ix2 n l)
        ⟨List.idxOf (⟨1, h1⟩ : Fin 3) (dimsUVL U V L N wf).startIndexMap, List.idxOf_lt_length_iff.2 hm⟩
          = ix2 n 1 := by
      funext b; refine Fin.ext ?_
      match b with
      | ⟨0, _⟩ => rfl
      | ⟨1, _⟩ => rfl
    rw [hsi]
    rfl
  | ⟨2, h2⟩ =>
    -- the third axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨2, h2⟩ : Fin 3) ∉ (dimsUVL U V L N wf).startIndexMap from
      (by decide : (2 : Fin 3) ∉ ([0, 1] : List (Fin 3))))]
    unfold GatherDims.offCoord
    rw [dif_pos (show (⟨2, h2⟩ : Fin 3) ∈ (dimsUVL U V L N wf).sKept from
      (by decide : (2 : Fin 3) ∈ ([2] : List (Fin 3))))]
    rw [Nat.add_zero, Nat.zero_add]
    rfl

end UVL

end Cert.Hand
-- ==== Proof.RefValue.lean ====
/-
  What the reference program computes, result by result, as closed expressions in the row functions of the
  specification: the inflow array is the segment sum of the gathered action counts, the reward a row's sum of
  min (inflow, demand), the return the three-layer map of the row's inflow plus the bias, and the symbolic value
  their sum.
-/
import proofs.«429312_j33328946217236_2_alg».proof.Proof.Gen.ReferenceIdeal.Run
import proofs.«429312_j33328946217236_2_alg».proof.Proof.Gen.ReferenceIdeal.Read
import proofs.«429312_j33328946217236_2_alg».proof.Proof.Spec
import proofs.«429312_j33328946217236_2_alg».proof.Proof.LibGatherAt
import proofs.«429312_j33328946217236_2_alg».proof.Proof.LibClampIx
import proofs.«429312_j33328946217236_2_alg».proof.Proof.LibScatterRows
import proofs.«429312_j33328946217236_2_alg».proof.Proof.LibLayoutAt
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

noncomputable section

namespace Cert.RefValue

open Cert.ReferenceIdeal Cert.ReferenceIdeal.Gen Cert.ReferenceIdeal.Read Idealize.ShloMosaic Idealize.ShloMosaic.TcCoe
  Idealize.ShloMosaic.ValueIdx Idealize.SL.Sem Idealize.ShloMosaic.StableHlo Cert.Spec Cert.Hand

/-! ## The index words -/

/-- A source word that is not negative passes the normalisation unchanged. -/
theorem v5_of_nonneg (x6 : (⟨S369, .i32⟩ : BufTy).Contents (Elt Ideal)) (e : Fin 369) (h0 : 0 ≤ (x6 (ix1 e)).toInt) :
    val_main_v5 (F := Ideal) x6 (ix1 e) = x6 (ix1 e) := by
  rw [val_main_v5_apply, val_main_v2_apply, val_main_v1_apply, val_main_c_apply]
  unfold Scalar.select IntOp.cmpi
  show (if BitVec.ofBool (BitVec.slt (x6 (ix1 e)) 0#32) = 1 then _ else _) = _
  rw [slt_zero_of_nonneg _ h0]
  rfl

/-- An action word that is not negative passes the normalisation unchanged. -/
theorem v10_of_nonneg (x7 : (⟨S369, .i32⟩ : BufTy).Contents (Elt Ideal)) (e : Fin 369) (h0 : 0 ≤ (x7 (ix1 e)).toInt) :
    val_main_v10 (F := Ideal) x7 (ix1 e) = x7 (ix1 e) := by
  rw [val_main_v10_apply, val_main_v7_apply, val_main_v6_apply, val_main_c_1_apply]
  unfold Scalar.select IntOp.cmpi
  show (if BitVec.ofBool (BitVec.slt (x7 (ix1 e)) 0#32) = 1 then _ else _) = _
  rw [slt_zero_of_nonneg _ h0]
  rfl

/-- The first word of index pair e is the normalised source word. -/
theorem v13_left (x6 x7 : (⟨S369, .i32⟩ : BufTy).Contents (Elt Ideal)) (e : Fin 369) :
    val_main_v13 (F := Ideal) x6 x7 (ix2 e (0 : Fin 2)) = val_main_v5 (F := Ideal) x6 (ix1 e) := by
  unfold val_main_v13
  rw [Cert.Lib.LayoutAt.sideBySide_left (val_main_v11 (F := Ideal) x6) (val_main_v12 (F := Ideal) x7)
    concatenates_S369x1_S369x1_S369x2_d1 e (0 : Fin 2) (by decide), val_main_v11_apply]
  exact congrArg _ (funext fun a => Fin.ext (by match a with | ⟨0, _⟩ => rfl))

/-- The second word of index pair e is the normalised action word. -/
theorem v13_right (x6 x7 : (⟨S369, .i32⟩ : BufTy).Contents (Elt Ideal)) (e : Fin 369) :
    val_main_v13 (F := Ideal) x6 x7 (ix2 e (1 : Fin 2)) = val_main_v10 (F := Ideal) x7 (ix1 e) := by
  unfold val_main_v13
  rw [Cert.Lib.LayoutAt.sideBySide_right (val_main_v11 (F := Ideal) x6) (val_main_v12 (F := Ideal) x7)
    concatenates_S369x1_S369x1_S369x2_d1 e (1 : Fin 2) (by decide) (by decide), val_main_v12_apply]
  exact congrArg _ (funext fun a => Fin.ext (by match a with | ⟨0, _⟩ => rfl))

/-! ## The inflow array -/

/-- The gathered array at (b, e): the action count at batch row b and the clamped (source, action) pair of edge e. -/
theorem v14_apply (x1 : (⟨S16384x81x81, .f32⟩ : BufTy).Contents (Elt Ideal)) (x6 x7 : (⟨S369, .i32⟩ : BufTy).Contents (Elt Ideal))
    (hs : InRange x6) (ha : InRange x7) (b : Fin 16384) (e : Fin 369) :
    val_main_v14 (F := Ideal) x1 x6 x7 (ix2 b e)
      = x1 (ix3 b (clampIx 81 (by decide) (x6 (ix1 e))) (clampIx 81 (by decide) (x7 (ix1 e)))) := by
  unfold val_main_v14
  have hg : gather_S16384x81x81_S369x2_S16384x369_0_12_n_n_12_1_1638411
      = Cert.Hand.dimsLUV 16384 81 81 369 gather_S16384x81x81_S369x2_S16384x369_0_12_n_n_12_1_1638411_wf := rfl
  rw [hg, gather_LUV_apply (by decide) (by decide), v13_left, v13_right, v5_of_nonneg x6 e (hs e).1,
    v10_of_nonneg x7 e (ha e).1]

/-- Its transpose at (e, b). -/
theorem v15_apply (x1 : (⟨S16384x81x81, .f32⟩ : BufTy).Contents (Elt Ideal)) (x6 x7 : (⟨S369, .i32⟩ : BufTy).Contents (Elt Ideal))
    (hs : InRange x6) (ha : InRange x7) (e : Fin 369) (b : Fin 16384) :
    val_main_v15 (F := Ideal) x1 x6 x7 (ix2 e b)
      = x1 (ix3 b (clampIx 81 (by decide) (x6 (ix1 e))) (clampIx 81 (by decide) (x7 (ix1 e)))) := by
  unfold val_main_v15
  rw [Cert.Lib.LayoutAt.transpose_at, v14_apply x1 x6 x7 hs ha]

/-- The segment word of update row e. -/
theorem v17_apply (x8 : (⟨S369, .i32⟩ : BufTy).Contents (Elt Ideal)) (e : Fin 369) :
    val_main_v17 (F := Ideal) x8 (ix2 e (0 : Fin 1)) = x8 (ix1 e) := by
  rw [val_main_v17_apply]
  exact congrArg _ (funext fun a => Fin.ext (by match a with | ⟨0, _⟩ => rfl))

/-- The zero array the scatter starts from. -/
theorem v16_apply (j : S81x16384.Idx) : val_main_v16 (F := Ideal) j = 0 := by
  rw [val_main_v16_apply, val_main_cst_apply, Ideal.ofBits_def, Ideal.ofBits_zero_f32]

/-- The scattered array at (i, b): the inflow of node i in batch row b. -/
theorem v18_apply (x1 : (⟨S16384x81x81, .f32⟩ : BufTy).Contents (Elt Ideal)) (x6 x7 x8 : (⟨S369, .i32⟩ : BufTy).Contents (Elt Ideal))
    (hs : InRange x6) (ha : InRange x7) (i : Fin 81) (b : Fin 16384) :
    val_main_v18 (F := Ideal) x1 x6 x7 x8 (ix2 i b) = nsc x1 x6 x7 x8 b i := by
  unfold val_main_v18 Host.scatterAdd
  rw [Ideal.hostScatterAdd_def]
  have hd : scatter_S81x16384_S369x1_S369x16384_1_0_0_1
      = (⟨[1], [0], [0], 1, scatter_S81x16384_S369x1_S369x16384_1_0_0_1_wf⟩ : ScatterDims ⟨2, ![81, 16384]⟩ ⟨2, ![369, 1]⟩ ⟨2, ![369, 16384]⟩) := rfl
  rw [hd, Cert.LibScatterRows.hostScatterAdd_rows_apply, v16_apply, zero_add]
  unfold nsc
  refine Finset.sum_congr (Finset.filter_congr fun e _ => by rw [v17_apply]) fun e _ => ?_
  exact v15_apply x1 x6 x7 hs ha e b

/-- The inflow array at (b, i). -/
theorem nsc_apply (x1 : (⟨S16384x81x81, .f32⟩ : BufTy).Contents (Elt Ideal)) (x6 x7 x8 : (⟨S369, .i32⟩ : BufTy).Contents (Elt Ideal))
    (hs : InRange x6) (ha : InRange x7) (b : Fin 16384) (i : Fin 81) :
    val_main_v19 (F := Ideal) x1 x6 x7 x8 (ix2 b i) = nsc x1 x6 x7 x8 b i := by
  unfold val_main_v19
  rw [Cert.Lib.LayoutAt.transpose_at, v18_apply x1 x6 x7 x8 hs ha]

/-! ## The reward -/

/-- The reward of batch row b: the nodes' min (inflow, demand), summed. -/
theorem reward_apply (x0 : (⟨S16384x162, .f32⟩ : BufTy).Contents (Elt Ideal)) (x1 : (⟨S16384x81x81, .f32⟩ : BufTy).Contents (Elt Ideal))
    (x6 x7 x8 : (⟨S369, .i32⟩ : BufTy).Contents (Elt Ideal)) (hs : InRange x6) (ha : InRange x7) (b : Fin 16384) :
    val_main_v21 (F := Ideal) x0 x1 x6 x7 x8 (ix1 b) = rewardRow (nsc x1 x6 x7 x8 b) (dem x0 b) := by
  rw [val_main_v21_apply, val_main_cst_3_apply, Ideal.ofBits_def, Ideal.ofBits_zero_f32, zero_add]
  unfold rewardRow
  refine Finset.sum_congr rfl fun k _ => ?_
  have hk : idx_main_v21 (ix1 b) k = ix2 b k :=
    funext fun a => Fin.ext (by match a with | ⟨0, _⟩ => rfl | ⟨1, _⟩ => rfl)
  have hd : idx_main_v0 (ix2 b k) = ix2 b ⟨81 + k.val, by have := k.isLt; omega⟩ :=
    funext fun a => Fin.ext (by match a with | ⟨0, _⟩ => rfl | ⟨1, _⟩ => rfl)
  rw [hk, val_main_v20_apply, Ideal.minimumf_def, nsc_apply x1 x6 x7 x8 hs ha, val_main_v0_apply, hd]
  rfl

/-! ## The return -/

/-- The first hidden layer of batch row b. -/
theorem hid1_apply (x1 : (⟨S16384x81x81, .f32⟩ : BufTy).Contents (Elt Ideal)) (x2 : (⟨S81x32, .f32⟩ : BufTy).Contents (Elt Ideal))
    (x6 x7 x8 : (⟨S369, .i32⟩ : BufTy).Contents (Elt Ideal)) (hs : InRange x6) (ha : InRange x7) (b : Fin 16384) (k : Fin 32) :
    val_main_v23 (F := Ideal) x1 x2 x6 x7 x8 (ix2 b k) = hid1 (nsc x1 x6 x7 x8 b) x2 k := by
  rw [val_main_v23_apply, Ideal.maximumf_def, val_main_call0_v0_apply, val_main_call0_cst_apply, Ideal.ofBits_def,
    Ideal.ofBits_zero_f32, val_main_v22_apply]
  unfold hid1
  refine congrArg (fun t : EReal => max t 0) (Finset.sum_congr rfl fun i _ => ?_)
  have hl : lidx_main_v22 (ix2 b k) i = ix2 b i :=
    funext fun a => Fin.ext (by match a with | ⟨0, _⟩ => rfl | ⟨1, _⟩ => rfl)
  have hr : ridx_main_v22 (ix2 b k) i = ix2 i k :=
    funext fun a => Fin.ext (by match a with | ⟨0, _⟩ => rfl | ⟨1, _⟩ => rfl)
  rw [hl, hr, nsc_apply x1 x6 x7 x8 hs ha]

/-- The second hidden layer of batch row b. -/
theorem hid2_apply (x1 : (⟨S16384x81x81, .f32⟩ : BufTy).Contents (Elt Ideal)) (x2 : (⟨S81x32, .f32⟩ : BufTy).Contents (Elt Ideal))
    (x3 : (⟨S32x32, .f32⟩ : BufTy).Contents (Elt Ideal))
    (x6 x7 x8 : (⟨S369, .i32⟩ : BufTy).Contents (Elt Ideal)) (hs : InRange x6) (ha : InRange x7) (b : Fin 16384) (k : Fin 32) :
    val_main_v25 (F := Ideal) x1 x2 x3 x6 x7 x8 (ix2 b k) = hid2 (nsc x1 x6 x7 x8 b) x2 x3 k := by
  rw [val_main_v25_apply, Ideal.maximumf_def, val_main_call1_v0_apply, val_main_call1_cst_apply, Ideal.ofBits_def,
    Ideal.ofBits_zero_f32, val_main_v24_apply]
  unfold hid2
  refine congrArg (fun t : EReal => max t 0) (Finset.sum_congr rfl fun j _ => ?_)
  have hl : lidx_main_v24 (ix2 b k) j = ix2 b j :=
    funext fun a => Fin.ext (by match a with | ⟨0, _⟩ => rfl | ⟨1, _⟩ => rfl)
  have hr : ridx_main_v24 (ix2 b k) j = ix2 j k :=
    funext fun a => Fin.ext (by match a with | ⟨0, _⟩ => rfl | ⟨1, _⟩ => rfl)
  rw [hl, hr, hid1_apply x1 x2 x6 x7 x8 hs ha]

/-- The last layer of batch row b, before the bias. -/
theorem lin_apply (x1 : (⟨S16384x81x81, .f32⟩ : BufTy).Contents (Elt Ideal)) (x2 : (⟨S81x32, .f32⟩ : BufTy).Contents (Elt Ideal))
    (x3 : (⟨S32x32, .f32⟩ : BufTy).Contents (Elt Ideal)) (x4 : (⟨S32x1, .f32⟩ : BufTy).Contents (Elt Ideal))
    (x6 x7 x8 : (⟨S369, .i32⟩ : BufTy).Contents (Elt Ideal)) (hs : InRange x6) (ha : InRange x7) (b : Fin 16384) :
    val_main_v27 (F := Ideal) x1 x2 x3 x4 x6 x7 x8 (ix1 b) = linRow (nsc x1 x6 x7 x8 b) x2 x3 x4 := by
  have hi : idx_main_v27 (ix1 b) = ix2 b (0 : Fin 1) :=
    funext fun a => Fin.ext (by match a with | ⟨0, _⟩ => exact Nat.div_one _ | ⟨1, _⟩ => rfl)
  rw [val_main_v27_apply, hi, val_main_v26_apply]
  unfold linRow
  refine Finset.sum_congr rfl fun j _ => ?_
  have hl : lidx_main_v26 (ix2 b (0 : Fin 1)) j = ix2 b j :=
    funext fun a => Fin.ext (by match a with | ⟨0, _⟩ => rfl | ⟨1, _⟩ => rfl)
  have hr : ridx_main_v26 (ix2 b (0 : Fin 1)) j = ix2 j (0 : Fin 1) :=
    funext fun a => Fin.ext (by match a with | ⟨0, _⟩ => rfl | ⟨1, _⟩ => rfl)
  rw [hl, hr, hid2_apply x1 x2 x3 x6 x7 x8 hs ha]

/-- An array of one entry has one index. -/
theorem idx_S1 (k : S1.Idx) : k = ix1 (0 : Fin 1) :=
  funext fun a => match a with
    | ⟨0, _⟩ => Fin.ext (by have h : (k 0).val < 1 := (k 0).isLt; show (k 0).val = 0; omega)

/-- The broadcast bias. -/
theorem bias_apply (x5 : (⟨S1, .f32⟩ : BufTy).Contents (Elt Ideal)) (j : S16384.Idx) :
    val_main_v29 (F := Ideal) x5 j = x5 (ix1 (0 : Fin 1)) := by
  rw [val_main_v29_apply]
  unfold val_main_v28 shapeCast
  exact congrArg x5 (idx_S1 _)

/-- The return of batch row b. -/
theorem return_apply (x1 : (⟨S16384x81x81, .f32⟩ : BufTy).Contents (Elt Ideal)) (x2 : (⟨S81x32, .f32⟩ : BufTy).Contents (Elt Ideal))
    (x3 : (⟨S32x32, .f32⟩ : BufTy).Contents (Elt Ideal)) (x4 : (⟨S32x1, .f32⟩ : BufTy).Contents (Elt Ideal))
    (x5 : (⟨S1, .f32⟩ : BufTy).Contents (Elt Ideal))
    (x6 x7 x8 : (⟨S369, .i32⟩ : BufTy).Contents (Elt Ideal)) (hs : InRange x6) (ha : InRange x7) (b : Fin 16384) :
    val_main_v30 (F := Ideal) x1 x2 x3 x4 x5 x6 x7 x8 (ix1 b)
      = linRow (nsc x1 x6 x7 x8 b) x2 x3 x4 + x5 (ix1 (0 : Fin 1)) := by
  rw [val_main_v30_apply, Ideal.addf_def, lin_apply x1 x2 x3 x4 x6 x7 x8 hs ha, bias_apply]

/-! ## The symbolic value -/

/-- The symbolic value of batch row b: its reward plus its return. -/
theorem symbolic_apply (x0 : (⟨S16384x162, .f32⟩ : BufTy).Contents (Elt Ideal)) (x1 : (⟨S16384x81x81, .f32⟩ : BufTy).Contents (Elt Ideal))
    (x2 : (⟨S81x32, .f32⟩ : BufTy).Contents (Elt Ideal))
    (x3 : (⟨S32x32, .f32⟩ : BufTy).Contents (Elt Ideal)) (x4 : (⟨S32x1, .f32⟩ : BufTy).Contents (Elt Ideal))
    (x5 : (⟨S1, .f32⟩ : BufTy).Contents (Elt Ideal))
    (x6 x7 x8 : (⟨S369, .i32⟩ : BufTy).Contents (Elt Ideal)) (hs : InRange x6) (ha : InRange x7) (b : Fin 16384) :
    val_main_v31 (F := Ideal) x0 x1 x2 x3 x4 x5 x6 x7 x8 (ix1 b)
      = rewardRow (nsc x1 x6 x7 x8 b) (dem x0 b) + (linRow (nsc x1 x6 x7 x8 b) x2 x3 x4 + x5 (ix1 (0 : Fin 1))) := by
  rw [val_main_v31_apply, Ideal.addf_def, reward_apply x0 x1 x6 x7 x8 hs ha, return_apply x1 x2 x3 x4 x5 x6 x7 x8 hs ha]

/-! ## The run -/

/-- The inflow row of batch row b on device c's arguments. -/
abbrev N (m : (ℓ : Loc nD τ sig) → Buf (Elt Ideal) ℓ) (c : Dev nD) (b : Fin 16384) : Fin 81 → EReal :=
  fun i => nsc (m ((c.tc : Thread nD τ).loc main_arg1)) (m ((c.tc : Thread nD τ).loc main_arg6))
    (m ((c.tc : Thread nD τ).loc main_arg7)) (m ((c.tc : Thread nD τ).loc main_arg8)) b i

/-- Every weakly fair execution of the reference ends with its four results at the specification's row functions
    of the arguments' launch contents, and the arguments unchanged, provided the source and action words lie on
    their axes. -/
theorem run_spec (m : (ℓ : Loc nD τ sig) → Buf (Elt Ideal) ℓ) (ρ : Dev nD → PrngReg)
    (hs : ∀ c : Dev nD, InRange (m ((c.tc : Thread nD τ).loc main_arg6)))
    (ha : ∀ c : Dev nD, InRange (m ((c.tc : Thread nD τ).loc main_arg7))) :
    θ_run (defs (F := Ideal)) (onTc (τ := τ) (main (F := Ideal))) ⟨m, fun _ => 0, ρ⟩ (fun r => ∀ c : Dev nD,
        r.2.mem ((c.tc : Thread nD τ).loc main_v31) = (fun j =>
          rewardRow (N m c (j 0)) (dem (m ((c.tc : Thread nD τ).loc main_arg0)) (j 0))
            + (linRow (N m c (j 0)) (m ((c.tc : Thread nD τ).loc main_arg2)) (m ((c.tc : Thread nD τ).loc main_arg3))
                (m ((c.tc : Thread nD τ).loc main_arg4)) + m ((c.tc : Thread nD τ).loc main_arg5) (ix1 (0 : Fin 1))))
      ∧ r.2.mem ((c.tc : Thread nD τ).loc main_v21) = (fun j =>
          rewardRow (N m c (j 0)) (dem (m ((c.tc : Thread nD τ).loc main_arg0)) (j 0)))
      ∧ r.2.mem ((c.tc : Thread nD τ).loc main_v30) = (fun j =>
          linRow (N m c (j 0)) (m ((c.tc : Thread nD τ).loc main_arg2)) (m ((c.tc : Thread nD τ).loc main_arg3))
              (m ((c.tc : Thread nD τ).loc main_arg4)) + m ((c.tc : Thread nD τ).loc main_arg5) (ix1 (0 : Fin 1)))
      ∧ r.2.mem ((c.tc : Thread nD τ).loc main_v19) = (fun j =>
          nsc (m ((c.tc : Thread nD τ).loc main_arg1)) (m ((c.tc : Thread nD τ).loc main_arg6))
            (m ((c.tc : Thread nD τ).loc main_arg7)) (m ((c.tc : Thread nD τ).loc main_arg8)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run (defs (F := Ideal)) _ _).mono (fun _ h c => ?_) (Cert.ReferenceIdeal.Value.run (F := Ideal) m ρ)
  obtain ⟨h31, h21, h30, h19, hargs⟩ := h c
  refine ⟨h31.trans ((val_main_v31_eq _ _ _ _ _ _ _ _ _).trans (funext fun j => ?_)),
    h21.trans ((val_main_v21_eq _ _ _ _ _).trans (funext fun j => ?_)),
    h30.trans ((val_main_v30_eq _ _ _ _ _ _ _ _).trans (funext fun j => ?_)),
    h19.trans ((val_main_v19_eq _ _ _ _).trans (funext fun j => ?_)), hargs⟩
  · obtain ⟨b, rfl⟩ : ∃ b, j = ix1 b := ⟨j 0, eq_ix1 j⟩
    exact symbolic_apply _ _ _ _ _ _ _ _ _ (hs c) (ha c) b
  · obtain ⟨b, rfl⟩ : ∃ b, j = ix1 b := ⟨j 0, eq_ix1 j⟩
    exact reward_apply _ _ _ _ _ (hs c) (ha c) b
  · obtain ⟨b, rfl⟩ : ∃ b, j = ix1 b := ⟨j 0, eq_ix1 j⟩
    exact return_apply _ _ _ _ _ _ _ _ (hs c) (ha c) b
  · obtain ⟨b, i, rfl⟩ : ∃ b i, j = ix2 b i := ⟨j 0, j 1, eq_ix2 j⟩
    exact nsc_apply _ _ _ _ (hs c) (ha c) b i

end Cert.RefValue

end
-- ==== Proof.PreFacts.lean ====
/-
  What the precondition says of the inputs. The precondition is one bit: the conjunction of twelve "for all elements"
  tests, six on the float inputs (every |x| is below +∞) and six on the three index vectors (every word is at least 0
  and below 81, read signed). When that bit is one, every conjunct is one, and each "for all" holds at every element.
  Four of these are kept: every entry of the action-count array is a real number, and each index vector's words lie
  in [0, 81).
-/
import proofs.«429312_j33328946217236_2_alg».proof.Proof.Gen.Pre_finite_inputs
import proofs.«429312_j33328946217236_2_alg».proof.Proof.Spec
import Idealize.ShloMosaic.Lib.ReduceAll
import Idealize.ShloMosaic.Lib.StableHlo.Predicate
import Idealize.ShloMosaic.PureOps.Ideal
import Idealize.ShloMosaic.Lib.ValueIdx

noncomputable section

namespace Cert.PreFacts

open Cert.Pre_finite_inputs Idealize.ShloMosaic Idealize.ShloMosaic.ValueIdx

variable [Cert.Pre_finite_inputs.Facts]

/-- The scalar shape has one index. -/
instance subsingleton_scalar_idx : Subsingleton S_.Idx := ⟨fun a b => funext fun d => d.elim0⟩

/-- A bitwise "and" of two one-bit scalars that is one had both sides one. -/
theorem and_split {x y : IVec S_ 1} {j : S_.Idx} (h : andi x y j = 1#1) : x j = 1#1 ∧ y j = 1#1 :=
  IntOp.andi_eq_one.1 h

/-- The pattern 0x7F800000 is +∞. -/
theorem ofBits_inf : Ideal.ofBits .f32 0x7F800000#32 = ⊤ := by simp [Ideal.ofBits, Ideal.ieee]

/-- An extended real whose absolute value max (x, -x) is strictly below +∞ is a real number. -/
theorem real_of_abs_lt_top (x : EReal)
    (h : Ideal.cmp .olt (max x (-x)) (Ideal.ofBits .f32 0x7F800000#32) = 1#1) : ∃ r : ℝ, x = (r : EReal) := by
  rw [ofBits_inf] at h
  unfold Ideal.cmp at h
  rw [StableHlo.Predicate.ofBool_eq_one_iff] at h
  have hlt : max x (-x) < ⊤ := of_decide_eq_true h
  induction x using EReal.rec with
  | bot => simp at hlt
  | coe r => exact ⟨r, rfl⟩
  | top => simp at hlt

/-- A word that tests at least 0 and below 81, both read signed, lies in [0, 81) as an integer. -/
theorem word_in_range (w : BitVec 32) (h0 : IntOp.cmpi .sge w 0#32 = 1#1) (h81 : IntOp.cmpi .slt w 81#32 = 1#1) :
    0 ≤ w.toInt ∧ w.toInt < 81 := by
  have a := IntOp.cmpi_sge.1 h0
  have b := IntOp.cmpi_slt.1 h81
  rw [show (0#32 : BitVec 32).toInt = 0 from by decide] at a
  rw [show (81#32 : BitVec 32).toInt = 81 from by decide] at b
  exact ⟨a, b⟩

/-- The two "for all" tests of one index vector, each one, put every word of it in [0, 81). -/
theorem inRange_of_all (w : IVec S369 32)
    (hge : Host.reduce IntOp.andi (cmpi .sge w (broadcastInDim S369 ![] Facts.bcast_S_S369 (constantI S_ 32 0#32)))
        (constantI S_ 1 1#1) Facts.reducesTo_S369_S_d0 Facts.h_S_ ix0 = 1#1)
    (hlt : Host.reduce IntOp.andi (cmpi .slt w (broadcastInDim S369 ![] Facts.bcast_S_S369 (constantI S_ 32 81#32)))
        (constantI S_ 1 1#1) Facts.reducesTo_S369_S_d0 Facts.h_S_ ix0 = 1#1) :
    Cert.Spec.InRange w := by
  intro e
  have a := Host.reduce_andi_all _ _ _ _ _ hge (ix1 e)
  have b := Host.reduce_andi_all _ _ _ _ _ hlt (ix1 e)
  exact word_in_range (w (ix1 e)) a b

/-- When the precondition's bit is one: the action counts are real numbers, and the three index vectors' words are
    positions of an axis of 81 places. -/
theorem facts_of_pre (a0 : FVec Ideal S16384x162 .f32) (a1 : FVec Ideal S16384x81x81 .f32) (a2 : FVec Ideal S81x32 .f32)
    (a3 : FVec Ideal S32x32 .f32) (a4 : FVec Ideal S32x1 .f32) (a5 : FVec Ideal S1 .f32) (a6 a7 a8 : IVec S369 32)
    (h : Cert.Pre_finite_inputs.fn (F := Ideal) a0 a1 a2 a3 a4 a5 a6 a7 a8 = fun _ => 1#1) :
    Cert.Spec.Finite a1 ∧ Cert.Spec.InRange a6 ∧ Cert.Spec.InRange a7 ∧ Cert.Spec.InRange a8 := by
  have e := congrFun h ix0
  dsimp only [fn, fn_part1, fn_part2, fn_part3] at e
  -- the twelve conjuncts, the last one outermost
  obtain ⟨e, h12⟩ := and_split e
  obtain ⟨e, h11⟩ := and_split e
  obtain ⟨e, h10⟩ := and_split e
  obtain ⟨e, h9⟩ := and_split e
  obtain ⟨e, h8⟩ := and_split e
  obtain ⟨e, h7⟩ := and_split e
  obtain ⟨e, _⟩ := and_split e
  obtain ⟨e, _⟩ := and_split e
  obtain ⟨e, _⟩ := and_split e
  obtain ⟨e, _⟩ := and_split e
  obtain ⟨_, h2⟩ := and_split e
  refine ⟨fun j => ?_, inRange_of_all a6 h7 h8, inRange_of_all a7 h9 h10, inRange_of_all a8 h11 h12⟩
  exact real_of_abs_lt_top (a1 j) (Host.reduce_andi_all _ _ _ _ _ h2 j)

end Cert.PreFacts

end
-- ==== Proof.lean ====
/-
  A grid value network's step, batched: for each of 16384 batch rows, the inflow of each of the 81 nodes of a 9 × 9
  grid (the sum over the node's inflow edges of the action count at the edge's (source, action) pair), the reward
  (the nodes' min (inflow, demand), summed), and the return (two max (·, 0) layers and a last layer on the inflow, plus
  a bias); the value is their sum.

  The reference gathers the 369 edges' action counts and sums them by segment. The kernel flattens (source, action) to
  81 · source + action, builds on the host the 6561 × 81 matrix that counts the edges per (flattened position, node),
  and multiplies each block of 512 rows of flattened action counts by it; the rest it computes row by row as the
  reference does, packs inflow, reward and last layer into columns 0 … 82 of a 128-wide block, and the host cuts the
  columns out again. On the extended reals a row of real numbers times the counting matrix IS the sum over the edges,
  so the two programs agree — where the three index vectors' words lie in [0, 81): outside that range the reference
  reads the two words of a pair separately (clamped), the kernel their flattened sum, and the two differ.
  So the precondition asks, beside finite float inputs, for index words in [0, 81); the counting law uses the action
  counts' finiteness and nothing else of the floats.

  The three frames are the generated ones (the reference's is its generated run with the results dropped), the
  idealization ledger is empty, and the value claim joins the kernel's run and the reference's run, each read in the
  words of one specification.
-/
import proofs.«429312_j33328946217236_2_alg».proof.Defs
import proofs.«429312_j33328946217236_2_alg».proof.Proof.Gen.Kernel
import proofs.«429312_j33328946217236_2_alg».proof.Proof.Gen.Kernel.Skeleton
import proofs.«429312_j33328946217236_2_alg».proof.Proof.Gen.Kernel.Launch
import proofs.«429312_j33328946217236_2_alg».proof.Proof.Gen.Kernel.Points
import proofs.«429312_j33328946217236_2_alg».proof.Proof.Gen.Kernel.Frame
import proofs.«429312_j33328946217236_2_alg».proof.Proof.Gen.KernelIdeal
import proofs.«429312_j33328946217236_2_alg».proof.Proof.Gen.KernelIdeal.Skeleton
import proofs.«429312_j33328946217236_2_alg».proof.Proof.Gen.KernelIdeal.Launch
import proofs.«429312_j33328946217236_2_alg».proof.Proof.Gen.KernelIdeal.Points
import proofs.«429312_j33328946217236_2_alg».proof.Proof.Gen.KernelIdeal.Frame
import proofs.«429312_j33328946217236_2_alg».proof.Proof.Gen.ReferenceIdeal
import proofs.«429312_j33328946217236_2_alg».proof.Proof.Gen.Pre_finite_inputs
import proofs.«429312_j33328946217236_2_alg».proof.Proof.Gen.ReferenceIdeal.Run
import proofs.«429312_j33328946217236_2_alg».proof.Proof.Gen.ReferenceIdeal.Read
import proofs.«429312_j33328946217236_2_alg».proof.Proof.KerValue
import proofs.«429312_j33328946217236_2_alg».proof.Proof.RefValue
import proofs.«429312_j33328946217236_2_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame: its generated run, the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ledger of the idealization is empty. -/
theorem preserves : Cert.preserves_Kernel_KernelIdeal := trivial

/-- Both programs end with the specification's four results of the (agreeing) arguments. -/
theorem algebraic : Cert.algebraic_KernelIdeal_ReferenceIdeal := by
  intro m ρ m' ρ' hpre hagree
  have hf := fun c : Dev Cert.KernelIdeal.nD => Cert.PreFacts.facts_of_pre _ _ _ _ _ _ _ _ _ (hpre c)
  refine ⟨_, _, _, _, Cert.KerValue.run_spec m ρ (fun c => (hf c).1) (fun c => (hf c).2.1) (fun c => (hf c).2.2.1)
    (fun c => (hf c).2.2.2), ?_⟩
  refine (θ_run Cert.ReferenceIdeal.defs _ _).mono (fun _ h c => ?_)
    (Cert.RefValue.run_spec m' ρ' (fun c => by rw [(hagree c).2.2.2.2.2.2.1]; exact (hf c).2.1)
      (fun c => by rw [(hagree c).2.2.2.2.2.2.2.1]; exact (hf c).2.2.1))
  obtain ⟨h31, h21, h30, h19, hargs⟩ := h c
  obtain ⟨a0, a1, a2, a3, a4, a5, a6, a7, a8⟩ := hagree c
  refine ⟨h31.trans ?_, h21.trans ?_, h30.trans ?_, h19.trans ?_, hargs⟩
  all_goals
    try unfold Cert.RefValue.N
    simp only [a0, a1, a2, a3, a4, a5, a6, a7, a8]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
